-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S4096x4096 .f32) (main_arg15 : FVec F S1x4096 .f32) (main_arg16 : FVec F S1 .f32) (main_v63 : IVec S_ 1) (main_v67 : IVec S_ 1) : IVec S_ 1 :=
  let main_v68 : IVec S_ 1 := andi main_v63 main_v67
  let main_v69 : FVec F S4096x4096 .f32 := Host.absf main_arg14
  let main_cst_26 : FVec F S_ .f32 := constant S_ .f32 0x7F800000#32
  let main_v70 : FVec F S4096x4096 .f32 := broadcastInDim S4096x4096 ![] bcast_S_S4096x4096 main_cst_26
  let main_v71 : IVec S4096x4096 1 := cmpf .olt main_v69 main_v70
  let main_c_27 : IVec S_ 1 := constantI S_ 1 1#1
  let main_v72 : IVec S_ 1 := (fun x v => Host.reduce IntOp.andi x v reducesTo_S4096x4096_S_d0_1 h_S_) main_v71 main_c_27
  let main_v73 : IVec S_ 1 := andi main_v68 main_v72
  let main_v74 : FVec F S1x4096 .f32 := Host.absf main_arg15
  let main_cst_28 : FVec F S_ .f32 := constant S_ .f32 0x7F800000#32
  let main_v75 : FVec F S1x4096 .f32 := broadcastInDim S1x4096 ![] bcast_S_S1x4096 main_cst_28
  let main_v76 : IVec S1x4096 1 := cmpf .olt main_v74 main_v75
  let main_c_29 : IVec S_ 1 := constantI S_ 1 1#1
  let main_v77 : IVec S_ 1 := (fun x v => Host.reduce IntOp.andi x v reducesTo_S1x4096_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096x4096 .f32 := Host.absf main_arg12
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_v63 main_v67

def fn_part2 {F : FTy → Type} [FloatOps F] (main_arg7 : FVec F S4096 .f32) (main_arg8 : FVec F S4096 .f32) (main_arg9 : FVec F S4096 .f32) (main_arg10 : FVec F S4096 .f32) (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_v48 main_v49 main_v50

def fn_part1 {F : FTy → Type} [FloatOps F] (main_arg4 : FVec F S4096x1024 .f32) (main_arg5 : FVec F S4096x1024 .f32) (main_arg6 : FVec F S4096x1024 .f32) (main_arg7 : FVec F S4096 .f32) (main_arg8 : FVec F S4096 .f32) (main_arg9 : FVec F S4096 .f32) (main_arg10 : FVec F S4096 .f32) (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1024 .f32) (main_arg1 : FVec F S4096x4096 .f32) (main_arg2 : FVec F S4096x4096 .f32) (main_arg3 : FVec F S4096x1024 .f32) (main_arg4 : FVec F S4096x1024 .f32) (main_arg5 : FVec F S4096x1024 .f32) (main_arg6 : FVec F S4096x1024 .f32) (main_arg7 : FVec F S4096 .f32) (main_arg8 : FVec F S4096 .f32) (main_arg9 : FVec F S4096 .f32) (main_arg10 : FVec F S4096 .f32) (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1024 : Shape := ⟨2, ![4096, 1024]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S1024x4096 : Shape := ⟨2, ![1024, 4096]⟩
abbrev S4096x1 : Shape := ⟨2, ![4096, 1]⟩
abbrev S1x1 : Shape := ⟨2, ![1, 1]⟩
abbrev S512x1024 : Shape := ⟨2, ![512, 1024]⟩
abbrev S512x4096 : Shape := ⟨2, ![512, 4096]⟩
abbrev S512x256 : Shape := ⟨2, ![512, 256]⟩
abbrev S1024x256 : Shape := ⟨2, ![1024, 256]⟩
abbrev S1x256 : Shape := ⟨2, ![1, 256]⟩
abbrev S4096x256 : Shape := ⟨2, ![4096, 256]⟩
abbrev S256x1 : Shape := ⟨2, ![256, 1]⟩
abbrev S512x1 : Shape := ⟨2, ![512, 1]⟩

abbrev nBuf : Space → Nat
  | .hbm => 43
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S1, .f32⟩
  | .hbm, ⟨17, _⟩ => ⟨S4096x1024, .bf16⟩
  | .hbm, ⟨18, _⟩ => ⟨S4096x4096, .bf16⟩
  | .hbm, ⟨19, _⟩ => ⟨S1024x4096, .f32⟩
  | .hbm, ⟨20, _⟩ => ⟨S1024x4096, .bf16⟩
  | .hbm, ⟨21, _⟩ => ⟨S1024x4096, .f32⟩
  | .hbm, ⟨22, _⟩ => ⟨S1024x4096, .bf16⟩
  | .hbm, ⟨23, _⟩ => ⟨S1024x4096, .f32⟩
  | .hbm, ⟨24, _⟩ => ⟨S1024x4096, .bf16⟩
  | .hbm, ⟨25, _⟩ => ⟨S1024x4096, .f32⟩
  | .hbm, ⟨26, _⟩ => ⟨S1024x4096, .bf16⟩
  | .hbm, ⟨27, _⟩ => ⟨S4096x4096, .f32⟩
  | .hbm, ⟨28, _⟩ => ⟨S4096x4096, .bf16⟩
  | .hbm, ⟨29, _⟩ => ⟨S4096x4096, .f32⟩
  | .hbm, ⟨30, _⟩ => ⟨S4096x4096, .bf16⟩
  | .hbm, ⟨31, _⟩ => ⟨S4096x4096, .f32⟩
  | .hbm, ⟨32, _⟩ => ⟨S4096x4096, .bf16⟩
  | .hbm, ⟨33, _⟩ => ⟨S4096x4096, .f32⟩
  | .hbm, ⟨34, _⟩ => ⟨S4096x4096, .bf16⟩
  | .hbm, ⟨35, _⟩ => ⟨S4096x1, .f32⟩
  | .hbm, ⟨36, _⟩ => ⟨S4096x1, .bf16⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x1, .f32⟩
  | .hbm, ⟨42, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S512x256, .f32⟩
  | .local _ .vmem, ⟨5, _⟩ => ⟨S512x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S4096x256, .bf16⟩
  | .local _ .vmem, ⟨23, _⟩ => ⟨S4096x256, .bf16⟩
  | .local _ .vmem, ⟨24, _⟩ => ⟨S4096x256, .bf16⟩
  | .local _ .vmem, ⟨25, _⟩ => ⟨S4096x256, .bf16⟩
  | .local _ .vmem, ⟨26, _⟩ => ⟨S4096x256, .bf16⟩
  | .local _ .vmem, ⟨27, _⟩ => ⟨S4096x256, .bf16⟩
  | .local _ .vmem, ⟨28, _⟩ => ⟨S4096x256, .bf16⟩
  | .local _ .vmem, ⟨29, _⟩ => ⟨S4096x256, .bf16⟩
  | .local _ .vmem, ⟨30, _⟩ => ⟨S256x1, .bf16⟩
  | .local _ .vmem, ⟨31, _⟩ => ⟨S256x1, .bf16⟩
  | .local _ .vmem, ⟨32, _⟩ => ⟨S1x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v70 : BitVec 1 := Scalar.cmpi .eq arg1 c15_i32
  let v71 : BitVec 32 := Scalar.extui v70
  let c0_i32_44 : BitVec 32 := 0#32
  let v72 : BitVec 1 := Scalar.cmpi .ne v71 c0_i32_44
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S4096x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S4096x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S4096x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x1 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

class Facts₀ : Prop where
  bitsLt_bf16_f32 : FTy.bits .bf16 < FTy.bits .f32
  transposes_S4096x1024_S1024x4096_1_0 : S4096x1024.Transposes [1, 0] S1024x4096
  transposes_S4096x4096_S4096x4096_1_0 : S4096x4096.Transposes [1, 0] S4096x4096
  transposes_S1x4096_S4096x1_1_0 : S1x4096.Transposes [1, 0] S4096x1
  shapeCasts_S4096_S1x4096 : S4096.ShapeCasts S1x4096
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  dot_S512x1024_S1024x256_S512x256_1_0_0_1_n_n_wf : DotDims.WF S512x1024 S1024x256 S512x256 [1] [0] [0] [1] [] []
  dot_S512x4096_S4096x256_S512x256_1_0_0_1_n_n_wf : DotDims.WF S512x4096 S4096x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x4096.size a
  hwx0_2 : ∀ i : grid0.Coords, EltTy.bits .f32 = 32 ∨ (Rect.block (s := S4096x4096) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x4096.size a
  hwx0_3 : ∀ i : grid0.Coords, EltTy.bits .bf16 = 32 ∨ (Rect.block (s := S1024x4096) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x4096.size a
  hwx0_4 : ∀ i : grid0.Coords, EltTy.bits .bf16 = 32 ∨ (Rect.block (s := S1024x4096) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x4096.size a
  hwx0_5 : ∀ i : grid0.Coords, EltTy.bits .bf16 = 32 ∨ (Rect.block (s := S1024x4096) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x4096.size a
  hwx0_6 : ∀ i : grid0.Coords, EltTy.bits .bf16 = 32 ∨ (Rect.block (s := S1024x4096) S1024x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x4096.size a
  hwx0_7 : ∀ i : grid0.Coords, EltTy.bits .f32 = 32 ∨ (Rect.block (s := S1x4096) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x4096.size a
  hwx0_9 : ∀ i : grid0.Coords, EltTy.bits .f32 = 32 ∨ (Rect.block (s := S1x4096) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x4096.size a
  hwx0_10 : ∀ i : grid0.Coords, EltTy.bits .f32 = 32 ∨ (Rect.block (s := S1x4096) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x256.size a ≤ S4096x4096.size a
  hwx0_11 : ∀ i : grid0.Coords, EltTy.bits .bf16 = 32 ∨ (Rect.block (s := S4096x4096) S4096x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x256.size a ≤ S4096x4096.size a
  hwx0_12 : ∀ i : grid0.Coords, EltTy.bits .bf16 = 32 ∨ (Rect.block (s := S4096x4096) S4096x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x256.size a ≤ S4096x4096.size a
  hwx0_13 : ∀ i : grid0.Coords, EltTy.bits .bf16 = 32 ∨ (Rect.block (s := S4096x4096) S4096x256.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4096x256.size a ≤ S4096x4096.size a
  hwx0_14 : ∀ i : grid0.Coords, EltTy.bits .bf16 = 32 ∨ (Rect.block (s := S4096x4096) S4096x256.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1.size a ≤ S4096x1.size a
  hwx0_15 : ∀ i : grid0.Coords, EltTy.bits .bf16 = 32 ∨ (Rect.block (s := S4096x1) S256x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S4096x1.size a
  hwx0_17 : ∀ i : grid0.Coords, EltTy.bits .f32 = 32 ∨ (Rect.block (s := S4096x1) S512x1.size (cc0_transform_17 i) (hinb0_17 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S4096x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13) S4096x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S4096x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v17) S4096x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v19) S256x1.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v24) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v25) S512x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun i => !(k0_cond2 i == 1#1) | ⟨_ + 18, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S1024x4096 : Shape := ⟨2, ![1024, 4096]⟩
abbrev S_ : Shape := ⟨0, ![]⟩
abbrev S4096x1 : Shape := ⟨2, ![4096, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S1, .f32⟩
  | .hbm, ⟨17, _⟩ => ⟨S1024x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S1024x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S1024x4096, .f32⟩
  | .hbm, ⟨50, _⟩ => ⟨S4096x4096, .f32⟩
  | .hbm, ⟨51, _⟩ => ⟨S1x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S1024x4096, .f32⟩
  | .hbm, ⟨66, _⟩ => ⟨S4096x4096, .f32⟩
  | .hbm, ⟨67, _⟩ => ⟨S1x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x1, .f32⟩
  | .hbm, ⟨80, _⟩ => ⟨S4096x1, .f32⟩
  | .hbm, ⟨81, _⟩ => ⟨S1x1, .f32⟩
  | .hbm, ⟨82, _⟩ => ⟨S4096x1, .f32⟩
  | .hbm, ⟨83, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S_S4096x4096 : S_.BroadcastsInDim S4096x4096 (![] : Fin 0 → Fin S4096x4096.rank)
  transposes_S1x4096_S4096x1_1_0 : S1x4096.Transposes [1, 0] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1_S4096x1_1_0_0_1_n_n_wf : DotDims.WF S4096x4096 S4096x1 S4096x1 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.LstmSpec.lean ====
/-
  One LSTM step followed by a one-column linear head, as extended-real functions of the argument arrays.

  With z_g(b, j) = (Σ_k x(b,k)·Wx_g(j,k) + bx_g(j)) + Σ_k hid(b,k)·Wh_g(j,k) for the four gates g ∈ {i, f, o, c},
      c'(b, j) = σ(z_f)·cell(b, j) + σ(z_i)·tanh(z_c),      h'(b, j) = σ(z_o)·tanh(c'(b, j)),
  the result is y(b) = Σ_{j < 4096} h'(b, j)·Wy(j) + by.

  A tiled evaluation cuts the 4096 columns j into 16 tiles of 256, sums each tile's products, and adds the tile
  sums one after the other onto a zero: ((0 + T_0) + T_1) + … + T_15, then adds by. Addition of extended reals is
  commutative and associative with neutral 0, so the folded tile sums are the sum over all 4096 columns
  (`accUpTo_last`): no finiteness is needed anywhere.
-/
import Idealize.ShloMosaic.PureOps.Ideal
import Idealize.ShloMosaic.Lib.ValueIdx

noncomputable section

namespace Cert.LstmSpec

open Idealize.ShloMosaic Idealize.ShloMosaic.ValueIdx

/-- The seventeen arguments as functions of their coordinates. -/
structure Args where
  x : Fin 4096 → Fin 1024 → EReal
  hid : Fin 4096 → Fin 4096 → EReal
  cell : Fin 4096 → Fin 4096 → EReal
  wxi : Fin 4096 → Fin 1024 → EReal
  wxf : Fin 4096 → Fin 1024 → EReal
  wxo : Fin 4096 → Fin 1024 → EReal
  wxc : Fin 4096 → Fin 1024 → EReal
  bi : Fin 4096 → EReal
  bf : Fin 4096 → EReal
  bo : Fin 4096 → EReal
  bc : Fin 4096 → EReal
  whi : Fin 4096 → Fin 4096 → EReal
  whf : Fin 4096 → Fin 4096 → EReal
  who : Fin 4096 → Fin 4096 → EReal
  whc : Fin 4096 → Fin 4096 → EReal
  wy : Fin 4096 → EReal
  bias : EReal

/-- The seventeen argument arrays, in the order both programs take them (x, hidden, cell, the four input weight
    matrices i f o c, their four biases, the four hidden weight matrices, the head's weight row, its bias), read by
    coordinates. -/
def argsOf (a0 : (⟨2, ![4096, 1024]⟩ : Shape).Idx → EReal) (a1 a2 : (⟨2, ![4096, 4096]⟩ : Shape).Idx → EReal)
    (a3 a4 a5 a6 : (⟨2, ![4096, 1024]⟩ : Shape).Idx → EReal) (a7 a8 a9 a10 : (⟨1, ![4096]⟩ : Shape).Idx → EReal)
    (a11 a12 a13 a14 : (⟨2, ![4096, 4096]⟩ : Shape).Idx → EReal) (a15 : (⟨2, ![1, 4096]⟩ : Shape).Idx → EReal)
    (a16 : (⟨1, ![1]⟩ : Shape).Idx → EReal) : Args where
  x b k := a0 (ix2 b k)
  hid b k := a1 (ix2 b k)
  cell b j := a2 (ix2 b j)
  wxi j k := a3 (ix2 j k)
  wxf j k := a4 (ix2 j k)
  wxo j k := a5 (ix2 j k)
  wxc j k := a6 (ix2 j k)
  bi j := a7 (ix1 j)
  bf j := a8 (ix1 j)
  bo j := a9 (ix1 j)
  bc j := a10 (ix1 j)
  whi j k := a11 (ix2 j k)
  whf j k := a12 (ix2 j k)
  who j k := a13 (ix2 j k)
  whc j k := a14 (ix2 j k)
  wy j := a15 (ix2 (0 : Fin 1) j)
  bias := a16 (ix1 (0 : Fin 1))

/-- A gate's pre-activation at batch row `b` and hidden column `j`: the input projection, plus its bias, plus
    the hidden projection (in that order of addition). -/
def gatePre (A : Args) (wx : Fin 4096 → Fin 1024 → EReal) (bx : Fin 4096 → EReal) (wh : Fin 4096 → Fin 4096 → EReal)
    (b j : Fin 4096) : EReal :=
  ((∑ k : Fin 1024, A.x b k * wx j k) + bx j) + ∑ k : Fin 4096, A.hid b k * wh j k

/-- The new hidden state `o · tanh (f · cell + i · tanh c̃)`. -/
def hNew (A : Args) (b j : Fin 4096) : EReal :=
  Ideal.logistic (gatePre A A.wxo A.bo A.who b j)
    * Ideal.tanh (Ideal.logistic (gatePre A A.wxf A.bf A.whf b j) * A.cell b j
        + Ideal.logistic (gatePre A A.wxi A.bi A.whi b j) * Ideal.tanh (gatePre A A.wxc A.bc A.whc b j))

/-- The head: the new hidden state against the one output row of weights, plus the output bias. -/
def headOut (A : Args) (b : Fin 4096) : EReal := (∑ j : Fin 4096, hNew A b j * A.wy j) + A.bias

/-! ## The tiled evaluation -/

/-- Column `q` of hidden tile `h`. -/
def col (h : Fin 16) (q : Fin 256) : Fin 4096 := ⟨256 * h.val + q.val, by omega⟩

/-- Tile `h`'s contribution to row `b` of the head. -/
def tileSum (A : Args) (b : Fin 4096) (h : Fin 16) : EReal := ∑ q : Fin 256, hNew A b (col h q) * A.wy (col h q)

/-- The same by the tile's number (zero past the last tile). -/
def tileSumN (A : Args) (b : Fin 4096) (n : ℕ) : EReal := if h : n < 16 then tileSum A b ⟨n, h⟩ else 0

/-- The accumulator after tiles `0 … n`: started from zero at tile 0, each later tile added on the right. -/
def accUpTo (A : Args) (b : Fin 4096) : ℕ → EReal
  | 0 => 0 + tileSumN A b 0
  | n + 1 => accUpTo A b n + tileSumN A b (n + 1)

/-- What the tiled evaluation ends with. -/
def tiledOut (A : Args) (b : Fin 4096) : EReal := accUpTo A b 15 + A.bias

/-- Tiles and columns inside a tile are the 4096 columns. -/
def tileEquiv : Fin 16 × Fin 256 ≃ Fin 4096 where
  toFun p := col p.1 p.2
  invFun k := (⟨k.val / 256, by omega⟩, ⟨k.val % 256, by omega⟩)
  left_inv := fun ⟨h, q⟩ => Prod.ext (Fin.ext (by show (256 * h.val + q.val) / 256 = h.val; omega))
    (Fin.ext (by show (256 * h.val + q.val) % 256 = q.val; omega))
  right_inv := fun k => Fin.ext (by show 256 * (k.val / 256) + k.val % 256 = k.val; omega)

/-- A sum over the columns, taken tile by tile. -/
theorem sum_tiles (g : Fin 4096 → EReal) : ∑ h : Fin 16, ∑ q : Fin 256, g (col h q) = ∑ j : Fin 4096, g j :=
  (Fintype.sum_prod_type' (fun (h : Fin 16) (q : Fin 256) => g (col h q))).symm.trans (Equiv.sum_comp tileEquiv g)

/-- The accumulator is the sum of the tiles seen so far. -/
theorem accUpTo_eq_sum (A : Args) (b : Fin 4096) : ∀ n : ℕ, accUpTo A b n = ∑ i ∈ Finset.range (n + 1), tileSumN A b i
  | 0 => by rw [accUpTo, zero_add, Finset.sum_range_one]
  | n + 1 => by rw [accUpTo, accUpTo_eq_sum A b n, ← Finset.sum_range_succ _ (n + 1)]

/-- After the last tile the accumulator is the whole sum over the 4096 columns. -/
theorem accUpTo_last (A : Args) (b : Fin 4096) : accUpTo A b 15 = ∑ j : Fin 4096, hNew A b j * A.wy j := by
  rw [accUpTo_eq_sum, ← Fin.sum_univ_eq_sum_range (tileSumN A b) 16, ← sum_tiles]
  exact Finset.sum_congr rfl fun h _ => by rw [tileSumN, dif_pos h.isLt]; rfl

/-- The tiled evaluation computes the head. -/
theorem tiledOut_eq_headOut (A : Args) (b : Fin 4096) : tiledOut A b = headOut A b := by
  rw [tiledOut, accUpTo_last, headOut]

end Cert.LstmSpec

end
-- ==== Proof.Blocks.lean ====
/-
  Names for what the kernel sees at a grid point. The grid is 8 batch tiles by 16 hidden tiles, walked with the
  hidden tile fastest: point `t` is batch tile `t / 16`, hidden tile `t % 16`. Row `r` of a batch tile is batch row
  `512 · (t / 16) + r`; column `q` of a hidden tile is hidden column `256 · (t % 16) + q`. Each of the seventeen input
  windows stages one block of its array at the point; they are named here at their literal shapes.
-/
import proofs.«154037_j49254684950852_1_alg».proof.Proof.Gen.KernelIdeal.Frame
import proofs.«154037_j49254684950852_1_alg».proof.Proof.LstmSpec

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The grid has 128 points. -/
theorem lt128 (t : Fin cfg0.N) : t.val < 128 := lt_of_lt_of_eq t.isLt (show cfg0.N = 128 from N_0)

/-- The hidden tile of point `t`. -/
def tileOf (t : Fin cfg0.N) : Fin 16 := ⟨t.val % 16, Nat.mod_lt _ (by norm_num)⟩

/-- Batch row `r` of point `t`'s batch tile. -/
def rowOf (t : Fin cfg0.N) (r : Fin 512) : Fin 4096 := ⟨512 * (t.val / 16) + r.val, by have := lt128 t; omega⟩

/-- Hidden column `q` of point `t`'s hidden tile. -/
def colOf (t : Fin cfg0.N) (q : Fin 256) : Fin 4096 := Cert.LstmSpec.col (tileOf t) q

theorem colOf_val (t : Fin cfg0.N) (q : Fin 256) : (colOf t q).val = 256 * (t.val % 16) + q.val := rfl

/-- The argument arrays of core `c`, as the specification's coordinate functions. -/
def kArgs (c : Dev nD) : Cert.LstmSpec.Args :=
  Cert.LstmSpec.argsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16))

/-! The seventeen input blocks at point `t`. -/
abbrev xBlk (c : Dev nD) (t : Fin cfg0.N) : Vec Ideal S512x1024 .bf16 := iblk m c 0 t
abbrev hidBlk (c : Dev nD) (t : Fin cfg0.N) : Vec Ideal S512x4096 .bf16 := iblk m c 1 t
abbrev cellBlk (c : Dev nD) (t : Fin cfg0.N) : Vec Ideal S512x256 .f32 := iblk m c 2 t
abbrev wxiBlk (c : Dev nD) (t : Fin cfg0.N) : Vec Ideal S1024x256 .bf16 := iblk m c 3 t
abbrev wxfBlk (c : Dev nD) (t : Fin cfg0.N) : Vec Ideal S1024x256 .bf16 := iblk m c 4 t
abbrev wxoBlk (c : Dev nD) (t : Fin cfg0.N) : Vec Ideal S1024x256 .bf16 := iblk m c 5 t
abbrev wxcBlk (c : Dev nD) (t : Fin cfg0.N) : Vec Ideal S1024x256 .bf16 := iblk m c 6 t
abbrev biBlk (c : Dev nD) (t : Fin cfg0.N) : Vec Ideal S1x256 .f32 := iblk m c 7 t
abbrev bfBlk (c : Dev nD) (t : Fin cfg0.N) : Vec Ideal S1x256 .f32 := iblk m c 8 t
abbrev boBlk (c : Dev nD) (t : Fin cfg0.N) : Vec Ideal S1x256 .f32 := iblk m c 9 t
abbrev bcBlk (c : Dev nD) (t : Fin cfg0.N) : Vec Ideal S1x256 .f32 := iblk m c 10 t
abbrev whiBlk (c : Dev nD) (t : Fin cfg0.N) : Vec Ideal S4096x256 .bf16 := iblk m c 11 t
abbrev whfBlk (c : Dev nD) (t : Fin cfg0.N) : Vec Ideal S4096x256 .bf16 := iblk m c 12 t
abbrev whoBlk (c : Dev nD) (t : Fin cfg0.N) : Vec Ideal S4096x256 .bf16 := iblk m c 13 t
abbrev whcBlk (c : Dev nD) (t : Fin cfg0.N) : Vec Ideal S4096x256 .bf16 := iblk m c 14 t
abbrev wyBlk (c : Dev nD) (t : Fin cfg0.N) : Vec Ideal S256x1 .bf16 := iblk m c 15 t
abbrev byBlk (c : Dev nD) (t : Fin cfg0.N) : Vec Ideal S1x1 .f32 := iblk m c 16 t

end Cert.KernelIdeal.Blocks

end
-- ==== Proof.BlockReadsA.lean ====
/-
  What the activation and bias windows stage at a grid point, read at an entry: the x and hidden blocks are 512 batch
  rows of the (format-changed, hence unchanged at the extended reals) arguments; the cell block is 512 rows by 256
  columns of the cell argument; each bias block is 256 entries of its bias vector laid out as one row; the head's
  bias is its one entry.

  Each block read has the same three steps. The array the region finds is the argument after its one host operation
  (a change of float format, which is the identity at the extended reals; a reshape of a vector to one row; or
  nothing). The window's block index at point t is (t / 16, 0), (t / 16, t % 16), (0, t % 16) or (0, 0), decided once
  over the 128 points. An entry of the block sits in the array at index × block size + the entry's coordinate, axis by axis.
-/
import proofs.«154037_j49254684950852_1_alg».proof.Proof.Blocks
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The array the region finds at `main_v0`: the argument after its one host operation. -/
private theorem readsA_V_v0 (c : Dev nD) : @Eq (FVec Ideal S4096x1024 .bf16) (V m c main_v0)
    (truncf .bf16 (m ((c.tc : Thread nD τ).loc main_arg0) : FVec Ideal S4096x1024 .f32) bitsLt_bf16_f32) := by
  dsimp only [Gen.V, Gen.hostOps0]; after_results

/-- Window 0's block index at every grid point. -/
private theorem readsA_idx0 : ∀ t : Fin grid0.N, win0_0.index t (0 : Fin 2) = t.val / 16 ∧ win0_0.index t (1 : Fin 2) = 0 := by
  decide +kernel

theorem xBlk_apply (c : Dev nD) (t : Fin cfg0.N) (r : Fin 512) (k : Fin 1024) :
    xBlk m c t (ix2 r k) = m ((c.tc : Thread nD τ).loc main_arg0) (ix2 (rowOf t r) k) := by
  have hi : win0_0.index t 0 = t.val / 16 ∧ win0_0.index t 1 = 0 := readsA_idx0 t
  unfold xBlk iblk
  rw [View.read_apply]
  show V m c main_v0 (((cfg0.win 0).blk t).view.emb (ix2 r k)) = _
  rw [readsA_V_v0 m c, truncf_apply]
  congr 1
  funext a
  apply Fin.ext
  match a with
  | ⟨0, _⟩ => show win0_0.index t 0 * 512 + 1 * r.val = 512 * (t.val / 16) + r.val; rw [hi.1]; omega
  | ⟨1, _⟩ => show win0_0.index t 1 * 1024 + 1 * k.val = k.val; rw [hi.2]; omega

/-- The array the region finds at `main_v1`: the argument after its one host operation. -/
private theorem readsA_V_v1 (c : Dev nD) : @Eq (FVec Ideal S4096x4096 .bf16) (V m c main_v1)
    (truncf .bf16 (m ((c.tc : Thread nD τ).loc main_arg1) : FVec Ideal S4096x4096 .f32) bitsLt_bf16_f32) := by
  dsimp only [Gen.V, Gen.hostOps0]; after_results

/-- Window 1's block index at every grid point. -/
private theorem readsA_idx1 : ∀ t : Fin grid0.N, win0_1.index t (0 : Fin 2) = t.val / 16 ∧ win0_1.index t (1 : Fin 2) = 0 := by
  decide +kernel

theorem hidBlk_apply (c : Dev nD) (t : Fin cfg0.N) (r : Fin 512) (k : Fin 4096) :
    hidBlk m c t (ix2 r k) = m ((c.tc : Thread nD τ).loc main_arg1) (ix2 (rowOf t r) k) := by
  have hi : win0_1.index t 0 = t.val / 16 ∧ win0_1.index t 1 = 0 := readsA_idx1 t
  unfold hidBlk iblk
  rw [View.read_apply]
  show V m c main_v1 (((cfg0.win 1).blk t).view.emb (ix2 r k)) = _
  rw [readsA_V_v1 m c, truncf_apply]
  congr 1
  funext a
  apply Fin.ext
  match a with
  | ⟨0, _⟩ => show win0_1.index t 0 * 512 + 1 * r.val = 512 * (t.val / 16) + r.val; rw [hi.1]; omega
  | ⟨1, _⟩ => show win0_1.index t 1 * 4096 + 1 * k.val = k.val; rw [hi.2]; omega

/-- Window 2's block index at every grid point. -/
private theorem readsA_idx2 : ∀ t : Fin grid0.N, win0_2.index t (0 : Fin 2) = t.val / 16 ∧ win0_2.index t (1 : Fin 2) = t.val % 16 := by
  decide +kernel

theorem cellBlk_apply (c : Dev nD) (t : Fin cfg0.N) (r : Fin 512) (q : Fin 256) :
    cellBlk m c t (ix2 r q) = m ((c.tc : Thread nD τ).loc main_arg2) (ix2 (rowOf t r) (colOf t q)) := by
  have hi : win0_2.index t 0 = t.val / 16 ∧ win0_2.index t 1 = t.val % 16 := readsA_idx2 t
  unfold cellBlk iblk
  rw [View.read_apply]
  show V m c main_arg2 (((cfg0.win 2).blk t).view.emb (ix2 r q)) = _
  rw [V_main_arg2 m c]
  congr 1
  funext a
  apply Fin.ext
  match a with
  | ⟨0, _⟩ => show win0_2.index t 0 * 512 + 1 * r.val = 512 * (t.val / 16) + r.val; rw [hi.1]; omega
  | ⟨1, _⟩ => show win0_2.index t 1 * 256 + 1 * q.val = 256 * (t.val % 16) + q.val; rw [hi.2]; omega

/-- The array the region finds at `main_v20`: the argument after its one host operation. -/
private theorem readsA_V_v20 (c : Dev nD) : @Eq (Vec Ideal S1x4096 .f32) (V m c main_v20)
    (shapeCast S1x4096 (m ((c.tc : Thread nD τ).loc main_arg7) : Vec Ideal S4096 .f32) shapeCasts_S4096_S1x4096) := by
  dsimp only [Gen.V, Gen.hostOps0]; after_results; rfl

/-- Window 7's block index at every grid point. -/
private theorem readsA_idx7 : ∀ t : Fin grid0.N, win0_7.index t (0 : Fin 2) = 0 ∧ win0_7.index t (1 : Fin 2) = t.val % 16 := by
  decide +kernel

theorem biBlk_apply (c : Dev nD) (t : Fin cfg0.N) (u : Fin 1) (q : Fin 256) :
    biBlk m c t (ix2 u q) = m ((c.tc : Thread nD τ).loc main_arg7) (ix1 (colOf t q)) := by
  have hi : win0_7.index t 0 = 0 ∧ win0_7.index t 1 = t.val % 16 := readsA_idx7 t
  unfold biBlk iblk
  rw [View.read_apply]
  show V m c main_v20 (((cfg0.win 7).blk t).view.emb (ix2 u q)) = _
  rw [readsA_V_v20 m c]
  refine Eq.trans (congrArg _ (?_ : _ = ix2 (0 : Fin 1) (colOf t q))) (shapeCast_a_1a_apply _ _ _ _)
  funext a
  apply Fin.ext
  match a with
  | ⟨0, _⟩ => show win0_7.index t 0 * 1 + 1 * u.val = 0; rw [hi.1]; omega
  | ⟨1, _⟩ => show win0_7.index t 1 * 256 + 1 * q.val = 256 * (t.val % 16) + q.val; rw [hi.2]; omega

/-- The array the region finds at `main_v21`: the argument after its one host operation. -/
private theorem readsA_V_v21 (c : Dev nD) : @Eq (Vec Ideal S1x4096 .f32) (V m c main_v21)
    (shapeCast S1x4096 (m ((c.tc : Thread nD τ).loc main_arg8) : Vec Ideal S4096 .f32) shapeCasts_S4096_S1x4096) := by
  dsimp only [Gen.V, Gen.hostOps0]; after_results; rfl

/-- Window 8's block index at every grid point. -/
private theorem readsA_idx8 : ∀ t : Fin grid0.N, win0_8.index t (0 : Fin 2) = 0 ∧ win0_8.index t (1 : Fin 2) = t.val % 16 := by
  decide +kernel

theorem bfBlk_apply (c : Dev nD) (t : Fin cfg0.N) (u : Fin 1) (q : Fin 256) :
    bfBlk m c t (ix2 u q) = m ((c.tc : Thread nD τ).loc main_arg8) (ix1 (colOf t q)) := by
  have hi : win0_8.index t 0 = 0 ∧ win0_8.index t 1 = t.val % 16 := readsA_idx8 t
  unfold bfBlk iblk
  rw [View.read_apply]
  show V m c main_v21 (((cfg0.win 8).blk t).view.emb (ix2 u q)) = _
  rw [readsA_V_v21 m c]
  refine Eq.trans (congrArg _ (?_ : _ = ix2 (0 : Fin 1) (colOf t q))) (shapeCast_a_1a_apply _ _ _ _)
  funext a
  apply Fin.ext
  match a with
  | ⟨0, _⟩ => show win0_8.index t 0 * 1 + 1 * u.val = 0; rw [hi.1]; omega
  | ⟨1, _⟩ => show win0_8.index t 1 * 256 + 1 * q.val = 256 * (t.val % 16) + q.val; rw [hi.2]; omega

/-- The array the region finds at `main_v22`: the argument after its one host operation. -/
private theorem readsA_V_v22 (c : Dev nD) : @Eq (Vec Ideal S1x4096 .f32) (V m c main_v22)
    (shapeCast S1x4096 (m ((c.tc : Thread nD τ).loc main_arg9) : Vec Ideal S4096 .f32) shapeCasts_S4096_S1x4096) := by
  dsimp only [Gen.V, Gen.hostOps0]; after_results; rfl

/-- Window 9's block index at every grid point. -/
private theorem readsA_idx9 : ∀ t : Fin grid0.N, win0_9.index t (0 : Fin 2) = 0 ∧ win0_9.index t (1 : Fin 2) = t.val % 16 := by
  decide +kernel

theorem boBlk_apply (c : Dev nD) (t : Fin cfg0.N) (u : Fin 1) (q : Fin 256) :
    boBlk m c t (ix2 u q) = m ((c.tc : Thread nD τ).loc main_arg9) (ix1 (colOf t q)) := by
  have hi : win0_9.index t 0 = 0 ∧ win0_9.index t 1 = t.val % 16 := readsA_idx9 t
  unfold boBlk iblk
  rw [View.read_apply]
  show V m c main_v22 (((cfg0.win 9).blk t).view.emb (ix2 u q)) = _
  rw [readsA_V_v22 m c]
  refine Eq.trans (congrArg _ (?_ : _ = ix2 (0 : Fin 1) (colOf t q))) (shapeCast_a_1a_apply _ _ _ _)
  funext a
  apply Fin.ext
  match a with
  | ⟨0, _⟩ => show win0_9.index t 0 * 1 + 1 * u.val = 0; rw [hi.1]; omega
  | ⟨1, _⟩ => show win0_9.index t 1 * 256 + 1 * q.val = 256 * (t.val % 16) + q.val; rw [hi.2]; omega

/-- The array the region finds at `main_v23`: the argument after its one host operation. -/
private theorem readsA_V_v23 (c : Dev nD) : @Eq (Vec Ideal S1x4096 .f32) (V m c main_v23)
    (shapeCast S1x4096 (m ((c.tc : Thread nD τ).loc main_arg10) : Vec Ideal S4096 .f32) shapeCasts_S4096_S1x4096) := by
  dsimp only [Gen.V, Gen.hostOps0]; after_results; rfl

/-- Window 10's block index at every grid point. -/
private theorem readsA_idx10 : ∀ t : Fin grid0.N, win0_10.index t (0 : Fin 2) = 0 ∧ win0_10.index t (1 : Fin 2) = t.val % 16 := by
  decide +kernel

theorem bcBlk_apply (c : Dev nD) (t : Fin cfg0.N) (u : Fin 1) (q : Fin 256) :
    bcBlk m c t (ix2 u q) = m ((c.tc : Thread nD τ).loc main_arg10) (ix1 (colOf t q)) := by
  have hi : win0_10.index t 0 = 0 ∧ win0_10.index t 1 = t.val % 16 := readsA_idx10 t
  unfold bcBlk iblk
  rw [View.read_apply]
  show V m c main_v23 (((cfg0.win 10).blk t).view.emb (ix2 u q)) = _
  rw [readsA_V_v23 m c]
  refine Eq.trans (congrArg _ (?_ : _ = ix2 (0 : Fin 1) (colOf t q))) (shapeCast_a_1a_apply _ _ _ _)
  funext a
  apply Fin.ext
  match a with
  | ⟨0, _⟩ => show win0_10.index t 0 * 1 + 1 * u.val = 0; rw [hi.1]; omega
  | ⟨1, _⟩ => show win0_10.index t 1 * 256 + 1 * q.val = 256 * (t.val % 16) + q.val; rw [hi.2]; omega

/-- The array the region finds at `main_v24`: the argument after its one host operation. -/
private theorem readsA_V_v24 (c : Dev nD) : @Eq (Vec Ideal S1x1 .f32) (V m c main_v24)
    (shapeCast S1x1 (m ((c.tc : Thread nD τ).loc main_arg16) : Vec Ideal S1 .f32) shapeCasts_S1_S1x1) := by
  dsimp only [Gen.V, Gen.hostOps0]; after_results; rfl

/-- Window 16's block index at every grid point. -/
private theorem readsA_idx16 : ∀ t : Fin grid0.N, win0_16.index t (0 : Fin 2) = 0 ∧ win0_16.index t (1 : Fin 2) = 0 := by
  decide +kernel

theorem byBlk_apply (c : Dev nD) (t : Fin cfg0.N) (u v : Fin 1) :
    byBlk m c t (ix2 u v) = m ((c.tc : Thread nD τ).loc main_arg16) (ix1 (0 : Fin 1)) := by
  have hi : win0_16.index t 0 = 0 ∧ win0_16.index t 1 = 0 := readsA_idx16 t
  unfold byBlk iblk
  rw [View.read_apply]
  show V m c main_v24 (((cfg0.win 16).blk t).view.emb (ix2 u v)) = _
  rw [readsA_V_v24 m c]
  refine Eq.trans (congrArg _ (?_ : _ = ix2 (0 : Fin 1) (0 : Fin 1))) (shapeCast_a_1a_apply _ _ _ _)
  funext a
  apply Fin.ext
  match a with
  | ⟨0, _⟩ => show win0_16.index t 0 * 1 + 1 * u.val = 0; rw [hi.1]; omega
  | ⟨1, _⟩ => show win0_16.index t 1 * 1 + 1 * v.val = 0; rw [hi.2]; omega

end Cert.KernelIdeal.Blocks

end
-- ==== Proof.BlockReadsB.lean ====
/-
  What the weight windows stage at a grid point, read at an entry. The host transposes each weight matrix before the
  call (and changes its format, which is the identity at the extended reals), and the window takes 256 columns of the
  transposed matrix: entry (k, q) of a weight block is entry (hidden column of q, k) of the weight argument. The head's
  weight row is transposed to a column, of which the window takes 256 entries.
-/
import proofs.«154037_j49254684950852_1_alg».proof.Proof.Blocks
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## A transposed matrix in the narrower format, read at an entry -/

/-- Over the extended reals the change of format is the identity, so the transposed matrix in the narrower format
    reads, at `(k, j)`, the matrix at `(j, k)`. -/
theorem narrow_transpose_apply {a b : ℕ} (A : FVec Ideal ⟨2, ![a, b]⟩ .f32)
    (h : (⟨2, ![a, b]⟩ : Shape).Transposes [1, 0] ⟨2, ![b, a]⟩) (hb : FTy.bits .bf16 < FTy.bits .f32)
    (k : Fin b) (j : Fin a) :
    (truncf .bf16 (transpose ⟨2, ![b, a]⟩ [1, 0] A h) hb : FVec Ideal ⟨2, ![b, a]⟩ .bf16) (ix2 k j) = A (ix2 j k) :=
  transpose_ix2_apply A h k j

/-! ## The input weights: windows 3 to 6 stage 256 columns of a transposed 4096 × 1024 matrix -/

/-- The array window 3 finds: the input gate's input weights, transposed, in the narrower format. -/
theorem V_main_v3 (c : Dev nD) : (V m c main_v3 : S1024x4096.Idx → EReal)
    = truncf (F := Ideal) .bf16 (transpose S1024x4096 [1, 0] (m ((c.tc : Thread nD τ).loc main_arg3))
        transposes_S4096x1024_S1024x4096_1_0) bitsLt_bf16_f32 := by
  dsimp only [Gen.V, Gen.hostOps0]; after_results

/-- Window 3's block index at point `t` is `(0, t % 16)`. -/
theorem idx3 : ∀ t : Fin cfg0.N, win0_3.index t (0 : Fin 2) = 0 ∧ win0_3.index t (1 : Fin 2) = t.val % 16 :=
  (by decide +kernel : ∀ t : Fin grid0.N, _)

theorem wxiBlk_apply (c : Dev nD) (t : Fin cfg0.N) (k : Fin 1024) (q : Fin 256) :
    wxiBlk m c t (ix2 k q) = m ((c.tc : Thread nD τ).loc main_arg3) (ix2 (colOf t q) k) := by
  obtain ⟨e0, e1⟩ := idx3 t
  show iblk m c 3 t (ix2 k q) = _
  unfold iblk
  rw [View.read_apply]
  show V m c main_v3 (((cfg0.win 3).blk t).view.emb (ix2 k q)) = _
  have he : ((cfg0.win 3).blk t).view.emb (ix2 k q) = ix2 k (colOf t q) := by
    funext a; apply Fin.ext
    match a with
    | ⟨0, _⟩ => show win0_3.index t (0 : Fin 2) * 1024 + 1 * k.val = k.val; omega
    | ⟨1, _⟩ => show win0_3.index t (1 : Fin 2) * 256 + 1 * q.val = 256 * (t.val % 16) + q.val; omega
  rw [he, V_main_v3]
  exact narrow_transpose_apply _ _ _ k (colOf t q)

/-- The array window 4 finds: the forget gate's input weights, transposed, in the narrower format. -/
theorem V_main_v5 (c : Dev nD) : (V m c main_v5 : S1024x4096.Idx → EReal)
    = truncf (F := Ideal) .bf16 (transpose S1024x4096 [1, 0] (m ((c.tc : Thread nD τ).loc main_arg4))
        transposes_S4096x1024_S1024x4096_1_0) bitsLt_bf16_f32 := by
  dsimp only [Gen.V, Gen.hostOps0]; after_results

/-- Window 4's block index at point `t` is `(0, t % 16)`. -/
theorem idx4 : ∀ t : Fin cfg0.N, win0_4.index t (0 : Fin 2) = 0 ∧ win0_4.index t (1 : Fin 2) = t.val % 16 :=
  (by decide +kernel : ∀ t : Fin grid0.N, _)

theorem wxfBlk_apply (c : Dev nD) (t : Fin cfg0.N) (k : Fin 1024) (q : Fin 256) :
    wxfBlk m c t (ix2 k q) = m ((c.tc : Thread nD τ).loc main_arg4) (ix2 (colOf t q) k) := by
  obtain ⟨e0, e1⟩ := idx4 t
  show iblk m c 4 t (ix2 k q) = _
  unfold iblk
  rw [View.read_apply]
  show V m c main_v5 (((cfg0.win 4).blk t).view.emb (ix2 k q)) = _
  have he : ((cfg0.win 4).blk t).view.emb (ix2 k q) = ix2 k (colOf t q) := by
    funext a; apply Fin.ext
    match a with
    | ⟨0, _⟩ => show win0_4.index t (0 : Fin 2) * 1024 + 1 * k.val = k.val; omega
    | ⟨1, _⟩ => show win0_4.index t (1 : Fin 2) * 256 + 1 * q.val = 256 * (t.val % 16) + q.val; omega
  rw [he, V_main_v5]
  exact narrow_transpose_apply _ _ _ k (colOf t q)

/-- The array window 5 finds: the output gate's input weights, transposed, in the narrower format. -/
theorem V_main_v7 (c : Dev nD) : (V m c main_v7 : S1024x4096.Idx → EReal)
    = truncf (F := Ideal) .bf16 (transpose S1024x4096 [1, 0] (m ((c.tc : Thread nD τ).loc main_arg5))
        transposes_S4096x1024_S1024x4096_1_0) bitsLt_bf16_f32 := by
  dsimp only [Gen.V, Gen.hostOps0]; after_results

/-- Window 5's block index at point `t` is `(0, t % 16)`. -/
theorem idx5 : ∀ t : Fin cfg0.N, win0_5.index t (0 : Fin 2) = 0 ∧ win0_5.index t (1 : Fin 2) = t.val % 16 :=
  (by decide +kernel : ∀ t : Fin grid0.N, _)

theorem wxoBlk_apply (c : Dev nD) (t : Fin cfg0.N) (k : Fin 1024) (q : Fin 256) :
    wxoBlk m c t (ix2 k q) = m ((c.tc : Thread nD τ).loc main_arg5) (ix2 (colOf t q) k) := by
  obtain ⟨e0, e1⟩ := idx5 t
  show iblk m c 5 t (ix2 k q) = _
  unfold iblk
  rw [View.read_apply]
  show V m c main_v7 (((cfg0.win 5).blk t).view.emb (ix2 k q)) = _
  have he : ((cfg0.win 5).blk t).view.emb (ix2 k q) = ix2 k (colOf t q) := by
    funext a; apply Fin.ext
    match a with
    | ⟨0, _⟩ => show win0_5.index t (0 : Fin 2) * 1024 + 1 * k.val = k.val; omega
    | ⟨1, _⟩ => show win0_5.index t (1 : Fin 2) * 256 + 1 * q.val = 256 * (t.val % 16) + q.val; omega
  rw [he, V_main_v7]
  exact narrow_transpose_apply _ _ _ k (colOf t q)

/-- The array window 6 finds: the cell candidate's input weights, transposed, in the narrower format. -/
theorem V_main_v9 (c : Dev nD) : (V m c main_v9 : S1024x4096.Idx → EReal)
    = truncf (F := Ideal) .bf16 (transpose S1024x4096 [1, 0] (m ((c.tc : Thread nD τ).loc main_arg6))
        transposes_S4096x1024_S1024x4096_1_0) bitsLt_bf16_f32 := by
  dsimp only [Gen.V, Gen.hostOps0]; after_results

/-- Window 6's block index at point `t` is `(0, t % 16)`. -/
theorem idx6 : ∀ t : Fin cfg0.N, win0_6.index t (0 : Fin 2) = 0 ∧ win0_6.index t (1 : Fin 2) = t.val % 16 :=
  (by decide +kernel : ∀ t : Fin grid0.N, _)

theorem wxcBlk_apply (c : Dev nD) (t : Fin cfg0.N) (k : Fin 1024) (q : Fin 256) :
    wxcBlk m c t (ix2 k q) = m ((c.tc : Thread nD τ).loc main_arg6) (ix2 (colOf t q) k) := by
  obtain ⟨e0, e1⟩ := idx6 t
  show iblk m c 6 t (ix2 k q) = _
  unfold iblk
  rw [View.read_apply]
  show V m c main_v9 (((cfg0.win 6).blk t).view.emb (ix2 k q)) = _
  have he : ((cfg0.win 6).blk t).view.emb (ix2 k q) = ix2 k (colOf t q) := by
    funext a; apply Fin.ext
    match a with
    | ⟨0, _⟩ => show win0_6.index t (0 : Fin 2) * 1024 + 1 * k.val = k.val; omega
    | ⟨1, _⟩ => show win0_6.index t (1 : Fin 2) * 256 + 1 * q.val = 256 * (t.val % 16) + q.val; omega
  rw [he, V_main_v9]
  exact narrow_transpose_apply _ _ _ k (colOf t q)

/-! ## The hidden weights: windows 11 to 14 stage 256 columns of a transposed 4096 × 4096 matrix -/

/-- The array window 11 finds: the input gate's hidden weights, transposed, in the narrower format. -/
theorem V_main_v11 (c : Dev nD) : (V m c main_v11 : S4096x4096.Idx → EReal)
    = truncf (F := Ideal) .bf16 (transpose S4096x4096 [1, 0] (m ((c.tc : Thread nD τ).loc main_arg11))
        transposes_S4096x4096_S4096x4096_1_0) bitsLt_bf16_f32 := by
  dsimp only [Gen.V, Gen.hostOps0]; after_results

/-- Window 11's block index at point `t` is `(0, t % 16)`. -/
theorem idx11 : ∀ t : Fin cfg0.N, win0_11.index t (0 : Fin 2) = 0 ∧ win0_11.index t (1 : Fin 2) = t.val % 16 :=
  (by decide +kernel : ∀ t : Fin grid0.N, _)

theorem whiBlk_apply (c : Dev nD) (t : Fin cfg0.N) (k : Fin 4096) (q : Fin 256) :
    whiBlk m c t (ix2 k q) = m ((c.tc : Thread nD τ).loc main_arg11) (ix2 (colOf t q) k) := by
  obtain ⟨e0, e1⟩ := idx11 t
  show iblk m c 11 t (ix2 k q) = _
  unfold iblk
  rw [View.read_apply]
  show V m c main_v11 (((cfg0.win 11).blk t).view.emb (ix2 k q)) = _
  have he : ((cfg0.win 11).blk t).view.emb (ix2 k q) = ix2 k (colOf t q) := by
    funext a; apply Fin.ext
    match a with
    | ⟨0, _⟩ => show win0_11.index t (0 : Fin 2) * 4096 + 1 * k.val = k.val; omega
    | ⟨1, _⟩ => show win0_11.index t (1 : Fin 2) * 256 + 1 * q.val = 256 * (t.val % 16) + q.val; omega
  rw [he, V_main_v11]
  exact narrow_transpose_apply _ _ _ k (colOf t q)

/-- The array window 12 finds: the forget gate's hidden weights, transposed, in the narrower format. -/
theorem V_main_v13 (c : Dev nD) : (V m c main_v13 : S4096x4096.Idx → EReal)
    = truncf (F := Ideal) .bf16 (transpose S4096x4096 [1, 0] (m ((c.tc : Thread nD τ).loc main_arg12))
        transposes_S4096x4096_S4096x4096_1_0) bitsLt_bf16_f32 := by
  dsimp only [Gen.V, Gen.hostOps0]; after_results

/-- Window 12's block index at point `t` is `(0, t % 16)`. -/
theorem idx12 : ∀ t : Fin cfg0.N, win0_12.index t (0 : Fin 2) = 0 ∧ win0_12.index t (1 : Fin 2) = t.val % 16 :=
  (by decide +kernel : ∀ t : Fin grid0.N, _)

theorem whfBlk_apply (c : Dev nD) (t : Fin cfg0.N) (k : Fin 4096) (q : Fin 256) :
    whfBlk m c t (ix2 k q) = m ((c.tc : Thread nD τ).loc main_arg12) (ix2 (colOf t q) k) := by
  obtain ⟨e0, e1⟩ := idx12 t
  show iblk m c 12 t (ix2 k q) = _
  unfold iblk
  rw [View.read_apply]
  show V m c main_v13 (((cfg0.win 12).blk t).view.emb (ix2 k q)) = _
  have he : ((cfg0.win 12).blk t).view.emb (ix2 k q) = ix2 k (colOf t q) := by
    funext a; apply Fin.ext
    match a with
    | ⟨0, _⟩ => show win0_12.index t (0 : Fin 2) * 4096 + 1 * k.val = k.val; omega
    | ⟨1, _⟩ => show win0_12.index t (1 : Fin 2) * 256 + 1 * q.val = 256 * (t.val % 16) + q.val; omega
  rw [he, V_main_v13]
  exact narrow_transpose_apply _ _ _ k (colOf t q)

/-- The array window 13 finds: the output gate's hidden weights, transposed, in the narrower format. -/
theorem V_main_v15 (c : Dev nD) : (V m c main_v15 : S4096x4096.Idx → EReal)
    = truncf (F := Ideal) .bf16 (transpose S4096x4096 [1, 0] (m ((c.tc : Thread nD τ).loc main_arg13))
        transposes_S4096x4096_S4096x4096_1_0) bitsLt_bf16_f32 := by
  dsimp only [Gen.V, Gen.hostOps0]; after_results

/-- Window 13's block index at point `t` is `(0, t % 16)`. -/
theorem idx13 : ∀ t : Fin cfg0.N, win0_13.index t (0 : Fin 2) = 0 ∧ win0_13.index t (1 : Fin 2) = t.val % 16 :=
  (by decide +kernel : ∀ t : Fin grid0.N, _)

theorem whoBlk_apply (c : Dev nD) (t : Fin cfg0.N) (k : Fin 4096) (q : Fin 256) :
    whoBlk m c t (ix2 k q) = m ((c.tc : Thread nD τ).loc main_arg13) (ix2 (colOf t q) k) := by
  obtain ⟨e0, e1⟩ := idx13 t
  show iblk m c 13 t (ix2 k q) = _
  unfold iblk
  rw [View.read_apply]
  show V m c main_v15 (((cfg0.win 13).blk t).view.emb (ix2 k q)) = _
  have he : ((cfg0.win 13).blk t).view.emb (ix2 k q) = ix2 k (colOf t q) := by
    funext a; apply Fin.ext
    match a with
    | ⟨0, _⟩ => show win0_13.index t (0 : Fin 2) * 4096 + 1 * k.val = k.val; omega
    | ⟨1, _⟩ => show win0_13.index t (1 : Fin 2) * 256 + 1 * q.val = 256 * (t.val % 16) + q.val; omega
  rw [he, V_main_v15]
  exact narrow_transpose_apply _ _ _ k (colOf t q)

/-- The array window 14 finds: the cell candidate's hidden weights, transposed, in the narrower format. -/
theorem V_main_v17 (c : Dev nD) : (V m c main_v17 : S4096x4096.Idx → EReal)
    = truncf (F := Ideal) .bf16 (transpose S4096x4096 [1, 0] (m ((c.tc : Thread nD τ).loc main_arg14))
        transposes_S4096x4096_S4096x4096_1_0) bitsLt_bf16_f32 := by
  dsimp only [Gen.V, Gen.hostOps0]; after_results

/-- Window 14's block index at point `t` is `(0, t % 16)`. -/
theorem idx14 : ∀ t : Fin cfg0.N, win0_14.index t (0 : Fin 2) = 0 ∧ win0_14.index t (1 : Fin 2) = t.val % 16 :=
  (by decide +kernel : ∀ t : Fin grid0.N, _)

theorem whcBlk_apply (c : Dev nD) (t : Fin cfg0.N) (k : Fin 4096) (q : Fin 256) :
    whcBlk m c t (ix2 k q) = m ((c.tc : Thread nD τ).loc main_arg14) (ix2 (colOf t q) k) := by
  obtain ⟨e0, e1⟩ := idx14 t
  show iblk m c 14 t (ix2 k q) = _
  unfold iblk
  rw [View.read_apply]
  show V m c main_v17 (((cfg0.win 14).blk t).view.emb (ix2 k q)) = _
  have he : ((cfg0.win 14).blk t).view.emb (ix2 k q) = ix2 k (colOf t q) := by
    funext a; apply Fin.ext
    match a with
    | ⟨0, _⟩ => show win0_14.index t (0 : Fin 2) * 4096 + 1 * k.val = k.val; omega
    | ⟨1, _⟩ => show win0_14.index t (1 : Fin 2) * 256 + 1 * q.val = 256 * (t.val % 16) + q.val; omega
  rw [he, V_main_v17]
  exact narrow_transpose_apply _ _ _ k (colOf t q)

/-! ## The head's weights: window 15 stages 256 entries of the weight row transposed to a column -/

/-- The array window 15 finds: the head's weight row, transposed to a column, in the narrower format. -/
theorem V_main_v19 (c : Dev nD) : (V m c main_v19 : S4096x1.Idx → EReal)
    = truncf (F := Ideal) .bf16 (transpose S4096x1 [1, 0] (m ((c.tc : Thread nD τ).loc main_arg15))
        transposes_S1x4096_S4096x1_1_0) bitsLt_bf16_f32 := by
  dsimp only [Gen.V, Gen.hostOps0]; after_results

/-- Window 15's block index at point `t` is `(t % 16, 0)`. -/
theorem idx15 : ∀ t : Fin cfg0.N, win0_15.index t (0 : Fin 2) = t.val % 16 ∧ win0_15.index t (1 : Fin 2) = 0 :=
  (by decide +kernel : ∀ t : Fin grid0.N, _)

theorem wyBlk_apply (c : Dev nD) (t : Fin cfg0.N) (q : Fin 256) (u : Fin 1) :
    wyBlk m c t (ix2 q u) = m ((c.tc : Thread nD τ).loc main_arg15) (ix2 (0 : Fin 1) (colOf t q)) := by
  obtain ⟨e0, e1⟩ := idx15 t
  have hu : u = 0 := Fin.fin_one_eq_zero u
  subst hu
  show iblk m c 15 t (ix2 q (0 : Fin 1)) = _
  unfold iblk
  rw [View.read_apply]
  show V m c main_v19 (((cfg0.win 15).blk t).view.emb (ix2 q (0 : Fin 1))) = _
  have he : ((cfg0.win 15).blk t).view.emb (ix2 q (0 : Fin 1)) = ix2 (colOf t q) (0 : Fin 1) := by
    funext a; apply Fin.ext
    match a with
    | ⟨0, _⟩ => show win0_15.index t (0 : Fin 2) * 256 + 1 * q.val = 256 * (t.val % 16) + q.val; omega
    | ⟨1, _⟩ => show win0_15.index t (1 : Fin 2) * 1 + 1 * 0 = 0; omega
  rw [he, V_main_v19]
  exact narrow_transpose_apply _ _ _ (colOf t q) (0 : Fin 1)

end Cert.KernelIdeal.Blocks

end
-- ==== Proof.PointValue.lean ====
/-
  What one grid point computes, as a function of the seventeen staged blocks and the accumulator it finds: with
  z_g(r, q) = (Σ_k x(r,k)·wx_g(k,q) + bx_g(0,q)) + Σ_k hid(r,k)·wh_g(k,q) on the 512 x 256 tile,
  h'(r, q) = σ(z_o)·tanh(σ(z_f)·cell(r,q) + σ(z_i)·tanh(z_c)), the new accumulator at row r is the old one plus
  Σ_q h'(r, q)·wy(q, 0). The reset stores zero; the last hidden tile adds the head's bias.
-/
import proofs.«154037_j49254684950852_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PointValue

open Cert.KernelIdeal Cert.KernelIdeal.Gen Idealize.ShloMosaic Idealize.ShloMosaic.ValueIdx

/-- The accumulator a point leaves, as the body's payloads compose: the loaded blocks in window order (x, hidden,
    cell, the four input weight blocks i f o c, the four bias rows, the four hidden weight blocks, the head's weight
    column) and the accumulator found. Generic in the float instance. -/
def stepAcc {F : FTy → Type} [FloatOps F] (x0 : Vec F S512x1024 .bf16) (x1 : Vec F S512x4096 .bf16) (x2 : Vec F S512x256 .f32)
    (x3 x4 x5 x6 : Vec F S1024x256 .bf16) (x7 x8 x9 x10 : Vec F S1x256 .f32) (x11 x12 x13 x14 : Vec F S4096x256 .bf16)
    (x15 : Vec F S256x1 .bf16) (acc : Vec F S512x1 .f32) : FVec F S512x1 .f32 :=
  k0_pay8 (k0_pay3 x0) (k0_pay4 x1) (k0_pay5 x0 x1 x3 x7 x11) (k0_pay6 x0 x1 x4 x8 x12) (k0_pay7 x0 x5) x9 x13 x6 x10 x14 x2 x15 acc

/-- A gate's pre-activation on the tile, at row `r` and column `q`. -/
def gateBlk (x0 : S512x1024.Idx → EReal) (x1 : S512x4096.Idx → EReal) (wx : S1024x256.Idx → EReal) (bx : S1x256.Idx → EReal)
    (wh : S4096x256.Idx → EReal) (r : Fin 512) (q : Fin 256) : EReal :=
  ((∑ k : Fin 1024, x0 (ix2 r k) * wx (ix2 k q)) + bx (ix2 (0 : Fin 1) q)) + ∑ k : Fin 4096, x1 (ix2 r k) * wh (ix2 k q)

/-- The new hidden state on the tile. -/
def hBlk (x0 : S512x1024.Idx → EReal) (x1 : S512x4096.Idx → EReal) (x2 : S512x256.Idx → EReal)
    (x3 x4 x5 x6 : S1024x256.Idx → EReal) (x7 x8 x9 x10 : S1x256.Idx → EReal) (x11 x12 x13 x14 : S4096x256.Idx → EReal)
    (r : Fin 512) (q : Fin 256) : EReal :=
  Ideal.logistic (gateBlk x0 x1 x5 x9 x13 r q)
    * Ideal.tanh (Ideal.logistic (gateBlk x0 x1 x4 x8 x12 r q) * x2 (ix2 r q)
        + Ideal.logistic (gateBlk x0 x1 x3 x7 x11 r q) * Ideal.tanh (gateBlk x0 x1 x6 x10 x14 r q))

/-! ### The product of a 512 x 1024 block and a 1024 x 256 block into the zero accumulator -/

theorem lhs_mmX_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_mmX_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_mmX_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_mmX_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Entry (r, q) of the product is the sum over the 1024 inner positions. -/
theorem mmX_apply (a : FVec Ideal S512x1024 .bf16) (b : FVec Ideal S1024x256 .bf16) (r : Fin 512) (q : Fin 256) :
    matmul dot_S512x1024_S1024x256_S512x256_1_0_0_1_n_n none a b (constant (F := Ideal) S512x256 .f32 0x00000000#32) (ix2 r q)
      = ∑ k : Fin 1024, a (ix2 r k) * b (ix2 k q) := by
  unfold matmul
  rw [Ideal.matmul_constant_zero_apply, ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 r q) ((ValueIdx.contrEquiv1 dot_S512x1024_S1024x256_S512x256_1_0_0_1_n_n 1024 rfl rfl).symm k) = ix2 r k := funext fun a => Fin.ext (by
    match a with
    | ⟨0, _⟩ => exact lhs_mmX_0 _ _
    | ⟨1, _⟩ => exact (lhs_mmX_1 _ _).trans hk)
  have er : dot_S512x1024_S1024x256_S512x256_1_0_0_1_n_n.rhsIdx (ix2 r q) ((ValueIdx.contrEquiv1 dot_S512x1024_S1024x256_S512x256_1_0_0_1_n_n 1024 rfl rfl).symm k) = ix2 k q := funext fun a => Fin.ext (by
    match a with
    | ⟨0, _⟩ => exact (rhs_mmX_0 _ _).trans hk
    | ⟨1, _⟩ => exact rhs_mmX_1 _ _)
  rw [el, er]

/-! ### The product of a 512 x 4096 block and a 4096 x 256 block into the zero accumulator -/

theorem lhs_mmH_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_mmH_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_mmH_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_mmH_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Entry (r, q) of the product is the sum over the 4096 inner positions. -/
theorem mmH_apply (a : FVec Ideal S512x4096 .bf16) (b : FVec Ideal S4096x256 .bf16) (r : Fin 512) (q : Fin 256) :
    matmul dot_S512x4096_S4096x256_S512x256_1_0_0_1_n_n none a b (constant (F := Ideal) S512x256 .f32 0x00000000#32) (ix2 r q)
      = ∑ k : Fin 4096, a (ix2 r k) * b (ix2 k q) := by
  unfold matmul
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 r q) ((ValueIdx.contrEquiv1 dot_S512x4096_S4096x256_S512x256_1_0_0_1_n_n 4096 rfl rfl).symm k) = ix2 r k := funext fun a => Fin.ext (by
    match a with
    | ⟨0, _⟩ => exact lhs_mmH_0 _ _
    | ⟨1, _⟩ => exact (lhs_mmH_1 _ _).trans hk)
  have er : dot_S512x4096_S4096x256_S512x256_1_0_0_1_n_n.rhsIdx (ix2 r q) ((ValueIdx.contrEquiv1 dot_S512x4096_S4096x256_S512x256_1_0_0_1_n_n 4096 rfl rfl).symm k) = ix2 k q := funext fun a => Fin.ext (by
    match a with
    | ⟨0, _⟩ => exact (rhs_mmH_0 _ _).trans hk
    | ⟨1, _⟩ => exact rhs_mmH_1 _ _)
  rw [el, er]

/-! ### The product of a 512 x 256 block and a 256 x 1 block into the zero accumulator -/

theorem lhs_mmY_0 (i : S512x1.Idx) (q : dot_S512x256_S256x1_S512x1_1_0_0_1_n_n.contr.Idx) :
    (dot_S512x256_S256x1_S512x1_1_0_0_1_n_n.lhsIdx i q 0).val = (i 0).val := by
  unfold DotDims.lhsIdx
  rw [dif_neg (show ¬(0 : Fin S512x256.rank) ∈ dot_S512x256_S256x1_S512x1_1_0_0_1_n_n.lhsBatch by decide), dif_pos (show (0 : Fin S512x256.rank) ∈ dot_S512x256_S256x1_S512x1_1_0_0_1_n_n.lhsNonContracting by decide)]
  rfl
theorem lhs_mmY_1 (i : S512x1.Idx) (q : dot_S512x256_S256x1_S512x1_1_0_0_1_n_n.contr.Idx) :
    (dot_S512x256_S256x1_S512x1_1_0_0_1_n_n.lhsIdx i q 1).val = (q ⟨0, by decide⟩).val :=
  dot_S512x256_S256x1_S512x1_1_0_0_1_n_n.lhsIdx_val_of_single rfl i q
theorem rhs_mmY_0 (i : S512x1.Idx) (q : dot_S512x256_S256x1_S512x1_1_0_0_1_n_n.contr.Idx) :
    (dot_S512x256_S256x1_S512x1_1_0_0_1_n_n.rhsIdx i q 0).val = (q ⟨0, by decide⟩).val :=
  dot_S512x256_S256x1_S512x1_1_0_0_1_n_n.rhsIdx_val_of_single rfl i q
theorem rhs_mmY_1 (i : S512x1.Idx) (q : dot_S512x256_S256x1_S512x1_1_0_0_1_n_n.contr.Idx) :
    (dot_S512x256_S256x1_S512x1_1_0_0_1_n_n.rhsIdx i q 1).val = (i 1).val := by
  unfold DotDims.rhsIdx
  rw [dif_neg (show ¬(1 : Fin S256x1.rank) ∈ dot_S512x256_S256x1_S512x1_1_0_0_1_n_n.rhsBatch by decide), dif_pos (show (1 : Fin S256x1.rank) ∈ dot_S512x256_S256x1_S512x1_1_0_0_1_n_n.rhsNonContracting by decide)]
  rfl

/-- Entry (r, q) of the product is the sum over the 256 inner positions. -/
theorem mmY_apply (a : FVec Ideal S512x256 .bf16) (b : FVec Ideal S256x1 .bf16) (r : Fin 512) (q : Fin 1) :
    matmul dot_S512x256_S256x1_S512x1_1_0_0_1_n_n none a b (constant (F := Ideal) S512x1 .f32 0x00000000#32) (ix2 r q)
      = ∑ k : Fin 256, a (ix2 r k) * b (ix2 k q) := by
  unfold matmul
  rw [Ideal.matmul_constant_zero_apply, ← Equiv.sum_comp (ValueIdx.contrEquiv1 dot_S512x256_S256x1_S512x1_1_0_0_1_n_n 256 rfl rfl).symm]
  refine Finset.sum_congr rfl fun k _ => ?_
  have hk := ValueIdx.contrEquiv1_symm_val dot_S512x256_S256x1_S512x1_1_0_0_1_n_n 256 rfl rfl k
  have el : dot_S512x256_S256x1_S512x1_1_0_0_1_n_n.lhsIdx (ix2 r q) ((ValueIdx.contrEquiv1 dot_S512x256_S256x1_S512x1_1_0_0_1_n_n 256 rfl rfl).symm k) = ix2 r k := funext fun a => Fin.ext (by
    match a with
    | ⟨0, _⟩ => exact lhs_mmY_0 _ _
    | ⟨1, _⟩ => exact (lhs_mmY_1 _ _).trans hk)
  have er : dot_S512x256_S256x1_S512x1_1_0_0_1_n_n.rhsIdx (ix2 r q) ((ValueIdx.contrEquiv1 dot_S512x256_S256x1_S512x1_1_0_0_1_n_n 256 rfl rfl).symm k) = ix2 k q := funext fun a => Fin.ext (by
    match a with
    | ⟨0, _⟩ => exact (rhs_mmY_0 _ _).trans hk
    | ⟨1, _⟩ => exact rhs_mmY_1 _ _)
  rw [el, er]

/-! ### A gate's pre-activation at (r, q) -/

/-- The bias row laid over the 512 rows reads, at (r, q), the row's entry q. -/
theorem biasRow_apply (bx : S1x256.Idx → EReal) (h : S1x256.ShapeCasts S1x256) (hb : S1x256.Broadcasts S512x256) (r : Fin 512) (q : Fin 256) :
    broadcastTo S512x256 (shapeCast S1x256 bx h) hb (ix2 r q) = bx (ix2 (0 : Fin 1) q) := by
  rw [shapeCast_self]
  exact broadcastTo_1b_ab_apply bx hb r q

/-- Input projection, plus the bias row, plus hidden projection, at (r, q). -/
theorem gateTerm_apply (a : FVec Ideal S512x1024 .bf16) (g : FVec Ideal S512x4096 .bf16) (wx : FVec Ideal S1024x256 .bf16)
    (bx : FVec Ideal S1x256 .f32) (wh : FVec Ideal S4096x256 .bf16) (h : S1x256.ShapeCasts S1x256) (hb : S1x256.Broadcasts S512x256)
    (r : Fin 512) (q : Fin 256) :
    addf (addf (matmul dot_S512x1024_S1024x256_S512x256_1_0_0_1_n_n none a wx (constant (F := Ideal) S512x256 .f32 0x00000000#32))
          (broadcastTo S512x256 (shapeCast S1x256 bx h) hb))
        (matmul dot_S512x4096_S4096x256_S512x256_1_0_0_1_n_n none g wh (constant (F := Ideal) S512x256 .f32 0x00000000#32)) (ix2 r q)
      = gateBlk a g wx bx wh r q := by
  rw [addf_apply, addf_apply, mmX_apply, mmH_apply, biasRow_apply]
  rfl

/-- The input gate's payload is the gate's pre-activation. -/
theorem pay5_apply (x0 : Vec Ideal S512x1024 .bf16) (x1 : Vec Ideal S512x4096 .bf16) (wx : Vec Ideal S1024x256 .bf16)
    (bx : Vec Ideal S1x256 .f32) (wh : Vec Ideal S4096x256 .bf16) (r : Fin 512) (q : Fin 256) :
    k0_pay5 (F := Ideal) x0 x1 wx bx wh (ix2 r q) = gateBlk x0 x1 wx bx wh r q := by
  unfold k0_pay5 k0_pay3 k0_pay4
  rw [shapeCast_self x0, shapeCast_self x1, shapeCast_self wx, shapeCast_self wh]
  exact gateTerm_apply x0 x1 wx bx wh _ _ r q

/-- The forget gate's payload likewise. -/
theorem pay6_apply (x0 : Vec Ideal S512x1024 .bf16) (x1 : Vec Ideal S512x4096 .bf16) (wx : Vec Ideal S1024x256 .bf16)
    (bx : Vec Ideal S1x256 .f32) (wh : Vec Ideal S4096x256 .bf16) (r : Fin 512) (q : Fin 256) :
    k0_pay6 (F := Ideal) x0 x1 wx bx wh (ix2 r q) = gateBlk x0 x1 wx bx wh r q := by
  unfold k0_pay6 k0_pay3 k0_pay4
  rw [shapeCast_self x0, shapeCast_self x1, shapeCast_self wx, shapeCast_self wh]
  exact gateTerm_apply x0 x1 wx bx wh _ _ r q

/-! ### The new hidden state at (r, q), and the three payloads the statement names -/

/-- The gates' nonlinearities combine entry by entry; narrowing the format changes nothing on extended reals. -/
theorem hTerm_apply (zi zf zo zc cell : FVec Ideal S512x256 .f32) (h : FTy.bf16.bits < FTy.f32.bits) (r : Fin 512) (q : Fin 256) :
    (truncf .bf16 (mulf (logistic zo) (tanh (addf (mulf (logistic zf) cell) (mulf (logistic zi) (tanh zc))))) h : FVec Ideal S512x256 .bf16) (ix2 r q)
      = Ideal.logistic (zo (ix2 r q))
          * Ideal.tanh (Ideal.logistic (zf (ix2 r q)) * cell (ix2 r q) + Ideal.logistic (zi (ix2 r q)) * Ideal.tanh (zc (ix2 r q))) := rfl

/-- The accumulator a point leaves, at row `r`: the one it found plus the tile's 256 products. -/
theorem stepAcc_apply (x0 : Vec Ideal S512x1024 .bf16) (x1 : Vec Ideal S512x4096 .bf16) (x2 : Vec Ideal S512x256 .f32)
    (x3 x4 x5 x6 : Vec Ideal S1024x256 .bf16) (x7 x8 x9 x10 : Vec Ideal S1x256 .f32) (x11 x12 x13 x14 : Vec Ideal S4096x256 .bf16)
    (x15 : Vec Ideal S256x1 .bf16) (acc : Vec Ideal S512x1 .f32) (r : Fin 512) :
    stepAcc (F := Ideal) x0 x1 x2 x3 x4 x5 x6 x7 x8 x9 x10 x11 x12 x13 x14 x15 acc (ix2 r (0 : Fin 1))
      = acc (ix2 r (0 : Fin 1)) + ∑ q : Fin 256, hBlk x0 x1 x2 x3 x4 x5 x6 x7 x8 x9 x10 x11 x12 x13 x14 r q * x15 (ix2 q (0 : Fin 1)) := by
  unfold stepAcc k0_pay8 k0_pay7 k0_pay3 k0_pay4
  rw [shapeCast_self x0, shapeCast_self x1, shapeCast_self x5, shapeCast_self x13, shapeCast_self x6, shapeCast_self x14,
    shapeCast_self x15, shapeCast_self, addf_apply, mmY_apply]
  refine congrArg (acc (ix2 r (0 : Fin 1)) + ·) (Finset.sum_congr rfl fun q _ => congrArg (· * x15 (ix2 q (0 : Fin 1))) ?_)
  rw [hTerm_apply, pay5_apply, pay6_apply, gateTerm_apply, gateTerm_apply]
  rfl

/-- The reset stores zero. -/
theorem resetAcc_apply (r : Fin 512) : (k0_pay2 (F := Ideal)) (ix2 r (0 : Fin 1)) = (0 : EReal) := by
  unfold k0_pay2
  rw [shapeCast_self, broadcast_apply]
  exact Ideal.ofBits_zero_f32

/-- The last hidden tile writes the accumulator plus the head's bias. -/
theorem outPay_apply (acc : Vec Ideal S512x1 .f32) (x16 : Vec Ideal S1x1 .f32) (r : Fin 512) :
    k0_pay1 (F := Ideal) acc x16 (ix2 r (0 : Fin 1)) = acc (ix2 r (0 : Fin 1)) + x16 (ix2 (0 : Fin 1) (0 : Fin 1)) := by
  unfold k0_pay1
  rw [shapeCast_self x16, addf_apply]
  exact congrArg (acc (ix2 r (0 : Fin 1)) + ·) (broadcastTo_1b_ab_apply x16 _ r (0 : Fin 1))

end Cert.KernelIdeal.PointValue

end
-- ==== Proof.Pieces.lean ====
/-
  What each control case of the body leaves behind, as values. At the first hidden tile the accumulator is reset to
  zero and the tile's products are added to that zero; at every later tile the products are added to what the tile
  before left; at the last hidden tile the output block is, besides, the new accumulator plus the head's bias.
-/
import proofs.«154037_j49254684950852_1_alg».proof.Proof.Gen.KernelIdeal.Frame
import proofs.«154037_j49254684950852_1_alg».proof.Proof.PointValue
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.PointValue
open Idealize.ShloMosaic Idealize.ShloMosaic.TcCoe Idealize.SL.Sem

variable {F : FTy → Type} [FloatOps F]

theorem hz : (![0, 0] : Fin 2 → Nat) = fun _ => 0 := funext fun a => by fin_cases a <;> rfl

/-- The first hidden tile: the accumulator is stored as zero, read back, and the tile's products added to it. -/
theorem scratch_A (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S4096x256 .bf16) (harg15 : arg15.IsWhole) (arg16 : Memref sig .tc .vmem S4096x256 .bf16) (harg16 : arg16.IsWhole) (arg17 : Memref sig .tc .vmem S256x1 .bf16) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : cond0_0 i) (hc1 : ¬cond0_1 i)
    (x0 : Vec F S512x1024 .bf16) (x1 : Vec F S512x4096 .bf16) (x2 : Vec F S512x256 .f32) (x3 : Vec F S1024x256 .bf16) (x4 : Vec F S1024x256 .bf16) (x5 : Vec F S1024x256 .bf16) (x6 : Vec F S1024x256 .bf16) (x7 : Vec F S1x256 .f32) (x8 : Vec F S1x256 .f32) (x9 : Vec F S1x256 .f32) (x10 : Vec F S1x256 .f32) (x11 : Vec F S4096x256 .bf16) (x12 : Vec F S4096x256 .bf16) (x13 : Vec F S4096x256 .bf16) (x14 : Vec F S4096x256 .bf16) (x15 : Vec F S256x1 .bf16) (x16 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 = stepAcc x0 x1 x2 x3 x4 x5 x6 x7 x8 x9 x10 x11 x12 x13 x14 x15 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16)]
  unfold kernelRun0_A
  dsimp only
  sl_unfold_words
  rw [View.canon_cons_unit_zero (S := S512x1) hz, View.readCov_unit_zero (S := S512x1) _ hz]
  unfold stepAcc
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S1024x256) hz, View.ld_unit_zero (S := S1x256) hz, View.ld_unit_zero (S := S4096x256) hz, View.ld_unit_zero (S := S256x1) hz, View.ld_unit_zero (S := S1x1) hz, View.ld_unit_zero (S := S512x1) hz]

/-- A later hidden tile that is not the last: the accumulator found, plus the tile's products. -/
theorem scratch_B (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S4096x256 .bf16) (harg15 : arg15.IsWhole) (arg16 : Memref sig .tc .vmem S4096x256 .bf16) (harg16 : arg16.IsWhole) (arg17 : Memref sig .tc .vmem S256x1 .bf16) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : ¬cond0_0 i) (hc1 : ¬cond0_1 i)
    (x0 : Vec F S512x1024 .bf16) (x1 : Vec F S512x4096 .bf16) (x2 : Vec F S512x256 .f32) (x3 : Vec F S1024x256 .bf16) (x4 : Vec F S1024x256 .bf16) (x5 : Vec F S1024x256 .bf16) (x6 : Vec F S1024x256 .bf16) (x7 : Vec F S1x256 .f32) (x8 : Vec F S1x256 .f32) (x9 : Vec F S1x256 .f32) (x10 : Vec F S1x256 .f32) (x11 : Vec F S4096x256 .bf16) (x12 : Vec F S4096x256 .bf16) (x13 : Vec F S4096x256 .bf16) (x14 : Vec F S4096x256 .bf16) (x15 : Vec F S256x1 .bf16) (x16 : Vec F S1x1 .f32) (xs0 : Vec F S512x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = stepAcc x0 x1 x2 x3 x4 x5 x6 x7 x8 x9 x10 x11 x12 x13 x14 x15 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_B
  dsimp only
  sl_unfold_words
  rw [View.canon_unit_zero hz]
  unfold stepAcc
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S1024x256) hz, View.ld_unit_zero (S := S1x256) hz, View.ld_unit_zero (S := S4096x256) hz, View.ld_unit_zero (S := S256x1) hz, View.ld_unit_zero (S := S1x1) hz, View.ld_unit_zero (S := S512x1) hz]

/-- The last hidden tile leaves the same in the accumulator, -/
theorem scratch_C (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S4096x256 .bf16) (harg15 : arg15.IsWhole) (arg16 : Memref sig .tc .vmem S4096x256 .bf16) (harg16 : arg16.IsWhole) (arg17 : Memref sig .tc .vmem S256x1 .bf16) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : ¬cond0_0 i) (hc1 : cond0_1 i)
    (x0 : Vec F S512x1024 .bf16) (x1 : Vec F S512x4096 .bf16) (x2 : Vec F S512x256 .f32) (x3 : Vec F S1024x256 .bf16) (x4 : Vec F S1024x256 .bf16) (x5 : Vec F S1024x256 .bf16) (x6 : Vec F S1024x256 .bf16) (x7 : Vec F S1x256 .f32) (x8 : Vec F S1x256 .f32) (x9 : Vec F S1x256 .f32) (x10 : Vec F S1x256 .f32) (x11 : Vec F S4096x256 .bf16) (x12 : Vec F S4096x256 .bf16) (x13 : Vec F S4096x256 .bf16) (x14 : Vec F S4096x256 .bf16) (x15 : Vec F S256x1 .bf16) (x16 : Vec F S1x1 .f32) (xs0 : Vec F S512x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = stepAcc x0 x1 x2 x3 x4 x5 x6 x7 x8 x9 x10 x11 x12 x13 x14 x15 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_C
  dsimp only
  sl_unfold_words
  rw [View.canon_unit_zero hz]
  unfold stepAcc
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S1024x256) hz, View.ld_unit_zero (S := S1x256) hz, View.ld_unit_zero (S := S4096x256) hz, View.ld_unit_zero (S := S256x1) hz, View.ld_unit_zero (S := S1x1) hz, View.ld_unit_zero (S := S512x1) hz]

/-- and in the output block that new accumulator plus the head's bias. -/
theorem out_C (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S4096x256 .bf16) (harg15 : arg15.IsWhole) (arg16 : Memref sig .tc .vmem S4096x256 .bf16) (harg16 : arg16.IsWhole) (arg17 : Memref sig .tc .vmem S256x1 .bf16) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : ¬cond0_0 i) (hc1 : cond0_1 i)
    (x0 : Vec F S512x1024 .bf16) (x1 : Vec F S512x4096 .bf16) (x2 : Vec F S512x256 .f32) (x3 : Vec F S1024x256 .bf16) (x4 : Vec F S1024x256 .bf16) (x5 : Vec F S1024x256 .bf16) (x6 : Vec F S1024x256 .bf16) (x7 : Vec F S1x256 .f32) (x8 : Vec F S1x256 .f32) (x9 : Vec F S1x256 .f32) (x10 : Vec F S1x256 .f32) (x11 : Vec F S4096x256 .bf16) (x12 : Vec F S4096x256 .bf16) (x13 : Vec F S4096x256 .bf16) (x14 : Vec F S4096x256 .bf16) (x15 : Vec F S256x1 .bf16) (x16 : Vec F S1x1 .f32) (xs0 : Vec F S512x1 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = k0_pay1 (stepAcc x0 x1 x2 x3 x4 x5 x6 x7 x8 x9 x10 x11 x12 x13 x14 x15 xs0) x16 := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_C
  dsimp only
  sl_unfold_words
  rw [View.canon_unit_zero hz]
  unfold stepAcc
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S1024x256) hz, View.ld_unit_zero (S := S1x256) hz, View.ld_unit_zero (S := S4096x256) hz, View.ld_unit_zero (S := S256x1) hz, View.ld_unit_zero (S := S1x1) hz, View.ld_unit_zero (S := S512x1) hz, View.readCov_unit_zero (S := S512x1) _ hz]

end Cert.KernelIdeal.Pieces

end
-- ==== Proof.KernelValue.lean ====
/-
  The kernel's result array. Walking the grid with the hidden tile fastest, the scratch accumulator after point t
  holds, at row r, the folded tile sums of batch row 512·(t/16) + r over hidden tiles 0 … t % 16 (by induction on the
  point: a reset to zero at tile 0, one tile's products added at every point). At the last hidden tile of a batch
  tile the output block is that accumulator plus the head's bias, which is the specification's head of those 512
  batch rows; these eight write-backs tile the 4096 rows of the result.
-/
import proofs.«154037_j49254684950852_1_alg».proof.Proof.Gen.KernelIdeal.Value
import proofs.«154037_j49254684950852_1_alg».proof.Proof.Blocks
import proofs.«154037_j49254684950852_1_alg».proof.Proof.BlockReadsA
import proofs.«154037_j49254684950852_1_alg».proof.Proof.BlockReadsB
import proofs.«154037_j49254684950852_1_alg».proof.Proof.PointValue
import proofs.«154037_j49254684950852_1_alg».proof.Proof.Pieces
import Idealize.ShloMosaic.Lib.Pipeline.Value

set_option maxRecDepth 16384

noncomputable section

namespace Cert.KernelIdeal.KernelValue

open Cert.KernelIdeal Cert.KernelIdeal.Gen Cert.KernelIdeal.Blocks Cert.KernelIdeal.PointValue Cert.KernelIdeal.Pieces
open Idealize.ShloMosaic Idealize.ShloMosaic.TcCoe Idealize.SL.Sem Idealize.ShloMosaic.ValueIdx
open Idealize.ShloMosaic.Pipeline (Dat)
open Cert.LstmSpec (Args gatePre hNew headOut tileSum tileSumN accUpTo tiledOut)

variable (m : (ℓ : Loc nD τ sig) → Buf (Elt Ideal) ℓ) (ρ : Dev nD → PrngReg)

/-! ## One tile's products are the specification's tile sum -/

/-- A gate's pre-activation on the tile is the specification's, given what the five blocks hold. -/
theorem gate_eq (A : Args) (xb : S512x1024.Idx → EReal) (hb : S512x4096.Idx → EReal) (wxb : S1024x256.Idx → EReal)
    (bb : S1x256.Idx → EReal) (whb : S4096x256.Idx → EReal) (wx : Fin 4096 → Fin 1024 → EReal) (bx : Fin 4096 → EReal)
    (wh : Fin 4096 → Fin 4096 → EReal) (r : Fin 512) (q : Fin 256) (b j : Fin 4096)
    (hx : ∀ k, xb (ix2 r k) = A.x b k) (hh : ∀ k, hb (ix2 r k) = A.hid b k) (hwx : ∀ k, wxb (ix2 k q) = wx j k)
    (hbx : bb (ix2 (0 : Fin 1) q) = bx j) (hwh : ∀ k, whb (ix2 k q) = wh j k) :
    gateBlk xb hb wxb bb whb r q = gatePre A wx bx wh b j := by
  unfold gateBlk gatePre
  rw [hbx]
  congr 1
  · congr 1
    exact Finset.sum_congr rfl fun k _ => by rw [hx k, hwx k]
  · exact Finset.sum_congr rfl fun k _ => by rw [hh k, hwh k]

/-- The new hidden state on point `t`'s tile is the specification's at the tile's batch row and hidden column. -/
theorem hBlk_eq (c : Dev nD) (t : Fin cfg0.N) (r : Fin 512) (q : Fin 256) :
    hBlk (xBlk m c t) (hidBlk m c t) (cellBlk m c t) (wxiBlk m c t) (wxfBlk m c t) (wxoBlk m c t) (wxcBlk m c t)
        (biBlk m c t) (bfBlk m c t) (boBlk m c t) (bcBlk m c t) (whiBlk m c t) (whfBlk m c t) (whoBlk m c t) (whcBlk m c t) r q
      = hNew (kArgs m c) (rowOf t r) (colOf t q) := by
  unfold hBlk hNew
  rw [gate_eq (kArgs m c) (xBlk m c t) (hidBlk m c t) (wxoBlk m c t) (boBlk m c t) (whoBlk m c t) (kArgs m c).wxo (kArgs m c).bo (kArgs m c).who
        r q (rowOf t r) (colOf t q) (fun k => xBlk_apply m c t r k) (fun k => hidBlk_apply m c t r k) (fun k => wxoBlk_apply m c t k q)
        (boBlk_apply m c t 0 q) (fun k => whoBlk_apply m c t k q),
    gate_eq (kArgs m c) (xBlk m c t) (hidBlk m c t) (wxfBlk m c t) (bfBlk m c t) (whfBlk m c t) (kArgs m c).wxf (kArgs m c).bf (kArgs m c).whf
        r q (rowOf t r) (colOf t q) (fun k => xBlk_apply m c t r k) (fun k => hidBlk_apply m c t r k) (fun k => wxfBlk_apply m c t k q)
        (bfBlk_apply m c t 0 q) (fun k => whfBlk_apply m c t k q),
    gate_eq (kArgs m c) (xBlk m c t) (hidBlk m c t) (wxiBlk m c t) (biBlk m c t) (whiBlk m c t) (kArgs m c).wxi (kArgs m c).bi (kArgs m c).whi
        r q (rowOf t r) (colOf t q) (fun k => xBlk_apply m c t r k) (fun k => hidBlk_apply m c t r k) (fun k => wxiBlk_apply m c t k q)
        (biBlk_apply m c t 0 q) (fun k => whiBlk_apply m c t k q),
    gate_eq (kArgs m c) (xBlk m c t) (hidBlk m c t) (wxcBlk m c t) (bcBlk m c t) (whcBlk m c t) (kArgs m c).wxc (kArgs m c).bc (kArgs m c).whc
        r q (rowOf t r) (colOf t q) (fun k => xBlk_apply m c t r k) (fun k => hidBlk_apply m c t r k) (fun k => wxcBlk_apply m c t k q)
        (bcBlk_apply m c t 0 q) (fun k => whcBlk_apply m c t k q),
    cellBlk_apply m c t r q]
  rfl

/-- The 256 products of point `t`'s tile at row `r` are the specification's tile sum number `t % 16`. -/
theorem tile_eq (c : Dev nD) (t : Fin cfg0.N) (r : Fin 512) :
    (∑ q : Fin 256, hBlk (xBlk m c t) (hidBlk m c t) (cellBlk m c t) (wxiBlk m c t) (wxfBlk m c t) (wxoBlk m c t) (wxcBlk m c t)
        (biBlk m c t) (bfBlk m c t) (boBlk m c t) (bcBlk m c t) (whiBlk m c t) (whfBlk m c t) (whoBlk m c t) (whcBlk m c t) r q
          * wyBlk m c t (ix2 q (0 : Fin 1)))
      = tileSumN (kArgs m c) (rowOf t r) (t.val % 16) := by
  rw [tileSumN, dif_pos (Nat.mod_lt _ (by norm_num))]
  unfold tileSum
  refine Finset.sum_congr rfl fun q _ => ?_
  rw [hBlk_eq, wyBlk_apply]
  rfl

/-! ## The accumulator after each point -/

/-- The accumulator block after point `t`: at row `r`, the folded tile sums of that batch row up to this hidden tile. -/
def accBlk (c : Dev nD) (t : Fin cfg0.N) : Vec Ideal S512x1 .f32 :=
  fun y => accUpTo (kArgs m c) (rowOf t (y 0)) (t.val % 16)

/-- An index of a 512 x 1 block is a row and the one column. -/
theorem idx_col (y : S512x1.Idx) : y = ix2 ((y 0 : Fin 512)) (0 : Fin 1) := by
  funext a
  match a with
  | ⟨0, _⟩ => rfl
  | ⟨1, _⟩ => exact Fin.ext (by have h : (y 1).val < 1 := (y 1).isLt; show (y 1).val = 0; omega)

/-- One step of the fold: what a point leaves, given the accumulator block it found as a function `prev` with
    `prev (r, 0) = p r`. -/
theorem step_at (c : Dev nD) (t : Fin cfg0.N) (prev : Vec Ideal S512x1 .f32) (r : Fin 512) :
    stepAcc (F := Ideal) (xBlk m c t) (hidBlk m c t) (cellBlk m c t) (wxiBlk m c t) (wxfBlk m c t) (wxoBlk m c t) (wxcBlk m c t) (biBlk m c t) (bfBlk m c t) (boBlk m c t) (bcBlk m c t) (whiBlk m c t) (whfBlk m c t) (whoBlk m c t) (whcBlk m c t) (wyBlk m c t) prev (ix2 r (0 : Fin 1))
      = prev (ix2 r (0 : Fin 1)) + tileSumN (kArgs m c) (rowOf t r) (t.val % 16) := by
  rw [stepAcc_apply, tile_eq]

/-- At the first hidden tile of a batch tile the fold starts: zero plus tile 0. -/
theorem scratch_first (c : Dev nD) (t : Fin cfg0.N) (h0 : t.val % 16 = 0) : (outsAt0 m c t.val t.isLt).2 = accBlk m c t := by
  have h1 : ¬t.val % 16 = 15 := by omega
  rw [outsAt0_A m c t h0 h1]
  dsimp only
  rw [scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (fun hh => h1 ((hcond0_1 t).mp hh)) (xBlk m c t) (hidBlk m c t) (cellBlk m c t) (wxiBlk m c t) (wxfBlk m c t) (wxoBlk m c t) (wxcBlk m c t) (biBlk m c t) (bfBlk m c t) (boBlk m c t) (bcBlk m c t) (whiBlk m c t) (whfBlk m c t) (whoBlk m c t) (whcBlk m c t) (wyBlk m c t) (byBlk m c t)]
  funext y
  obtain ⟨r, rfl⟩ : ∃ r : Fin 512, y = ix2 r (0 : Fin 1) := ⟨y 0, idx_col y⟩
  rw [step_at, resetAcc_apply]
  show (0 : EReal) + tileSumN (kArgs m c) (rowOf t r) (t.val % 16) = accUpTo (kArgs m c) (rowOf t r) (t.val % 16)
  rw [h0]; rfl

/-- At a later hidden tile the fold goes on: what the tile before left, plus this tile. -/
theorem scratch_next (c : Dev nD) (t : Fin cfg0.N) (h0 : ¬t.val % 16 = 0) (prev : Vec Ideal S512x1 .f32)
    (hp : ∀ r : Fin 512, prev (ix2 r (0 : Fin 1)) = accUpTo (kArgs m c) (rowOf t r) (t.val % 16 - 1)) :
    stepAcc (F := Ideal) (xBlk m c t) (hidBlk m c t) (cellBlk m c t) (wxiBlk m c t) (wxfBlk m c t) (wxoBlk m c t) (wxcBlk m c t) (biBlk m c t) (bfBlk m c t) (boBlk m c t) (bcBlk m c t) (whiBlk m c t) (whfBlk m c t) (whoBlk m c t) (whcBlk m c t) (wyBlk m c t) prev = accBlk m c t := by
  funext y
  obtain ⟨r, rfl⟩ : ∃ r : Fin 512, y = ix2 r (0 : Fin 1) := ⟨y 0, idx_col y⟩
  rw [step_at, hp]
  show accUpTo (kArgs m c) (rowOf t r) (t.val % 16 - 1) + tileSumN (kArgs m c) (rowOf t r) (t.val % 16)
    = accUpTo (kArgs m c) (rowOf t r) (t.val % 16)
  obtain ⟨k, hk⟩ : ∃ k, t.val % 16 = k + 1 := ⟨t.val % 16 - 1, by omega⟩
  rw [hk]; rfl

/-- What the scratch holds after point `n` is the accumulator block: by induction on the point, the hidden tile
    deciding whether the fold starts (tile 0) or goes on from the point before (same batch tile, the tile before). -/
theorem scratch_eq (c : Dev nD) : ∀ (n : ℕ) (h : n < cfg0.N), (outsAt0 m c n h).2 = accBlk m c ⟨n, h⟩
  | 0, h => scratch_first m c ⟨0, h⟩ rfl
  | n + 1, h => by
    have hN : n + 1 < 128 := lt_of_lt_of_eq h (show cfg0.N = 128 from N_0)
    by_cases h0 : (n + 1) % 16 = 0
    · exact scratch_first m c ⟨n + 1, h⟩ h0
    · have ih := scratch_eq c n (Nat.lt_of_succ_lt h)
      have hp : ∀ r : Fin 512, (outsAt0 m c n (Nat.lt_of_succ_lt h)).2 (ix2 r (0 : Fin 1))
          = accUpTo (kArgs m c) (rowOf ⟨n + 1, h⟩ r) ((n + 1) % 16 - 1) := by
        intro r
        rw [ih]
        show accUpTo (kArgs m c) (rowOf ⟨n, Nat.lt_of_succ_lt h⟩ r) (n % 16) = _
        have e1 : (n + 1) % 16 - 1 = n % 16 := by omega
        have e2 : rowOf ⟨n, Nat.lt_of_succ_lt h⟩ r = rowOf ⟨n + 1, h⟩ r :=
          Fin.ext (by
            show 512 * (n / 16) + r.val = 512 * ((n + 1) / 16) + r.val
            have e3 : n / 16 = (n + 1) / 16 := by omega
            rw [e3])
        rw [e1, e2]
      by_cases h1 : (n + 1) % 16 = 15
      · rw [outsAt0_C m c ⟨n + 1, h⟩ h0 h1]
        dsimp only
        exact (scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (ms0_16 ⟨n + 1, h⟩) (hs0_16 ⟨n + 1, h⟩) (ms0_17 ⟨n + 1, h⟩) (hs0_17 ⟨n + 1, h⟩) scM0_0 (Memref.isWhole_whole _) (fun hh => h0 ((hcond0_0 ⟨n + 1, h⟩).mp hh)) ((hcond0_1 ⟨n + 1, h⟩).mpr h1) (xBlk m c ⟨n + 1, h⟩) (hidBlk m c ⟨n + 1, h⟩) (cellBlk m c ⟨n + 1, h⟩) (wxiBlk m c ⟨n + 1, h⟩) (wxfBlk m c ⟨n + 1, h⟩) (wxoBlk m c ⟨n + 1, h⟩) (wxcBlk m c ⟨n + 1, h⟩) (biBlk m c ⟨n + 1, h⟩) (bfBlk m c ⟨n + 1, h⟩) (boBlk m c ⟨n + 1, h⟩) (bcBlk m c ⟨n + 1, h⟩) (whiBlk m c ⟨n + 1, h⟩) (whfBlk m c ⟨n + 1, h⟩) (whoBlk m c ⟨n + 1, h⟩) (whcBlk m c ⟨n + 1, h⟩) (wyBlk m c ⟨n + 1, h⟩) (byBlk m c ⟨n + 1, h⟩) _).trans
          (scratch_next m c ⟨n + 1, h⟩ h0 _ hp)
      · rw [outsAt0_B m c ⟨n + 1, h⟩ h0 h1]
        dsimp only
        exact (scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (ms0_16 ⟨n + 1, h⟩) (hs0_16 ⟨n + 1, h⟩) (ms0_17 ⟨n + 1, h⟩) (hs0_17 ⟨n + 1, h⟩) scM0_0 (Memref.isWhole_whole _) (fun hh => h0 ((hcond0_0 ⟨n + 1, h⟩).mp hh)) (fun hh => h1 ((hcond0_1 ⟨n + 1, h⟩).mp hh)) (xBlk m c ⟨n + 1, h⟩) (hidBlk m c ⟨n + 1, h⟩) (cellBlk m c ⟨n + 1, h⟩) (wxiBlk m c ⟨n + 1, h⟩) (wxfBlk m c ⟨n + 1, h⟩) (wxoBlk m c ⟨n + 1, h⟩) (wxcBlk m c ⟨n + 1, h⟩) (biBlk m c ⟨n + 1, h⟩) (bfBlk m c ⟨n + 1, h⟩) (boBlk m c ⟨n + 1, h⟩) (bcBlk m c ⟨n + 1, h⟩) (whiBlk m c ⟨n + 1, h⟩) (whfBlk m c ⟨n + 1, h⟩) (whoBlk m c ⟨n + 1, h⟩) (whcBlk m c ⟨n + 1, h⟩) (wyBlk m c ⟨n + 1, h⟩) (byBlk m c ⟨n + 1, h⟩) _).trans
          (scratch_next m c ⟨n + 1, h⟩ h0 _ hp)

/-! ## What the last hidden tile writes back -/

/-- The specification's head, as contents of the result array. -/
def resultArr (c : Dev nD) : Buf (Elt Ideal) ((c : Thread nD τ).loc main_v25) := fun i => headOut (kArgs m c) (i 0)

/-- At the last hidden tile of a batch tile the output block holds the head of the tile's 512 batch rows. -/
theorem out_eq (c : Dev nD) (t : Fin cfg0.N) (h15 : t.val % 16 = 15) :
    (outsAt0 m c t.val t.isLt).1 = fun y => headOut (kArgs m c) (rowOf t (y 0)) := by
  have h0 : ¬t.val % 16 = 0 := by omega
  have hs := scratch_eq m c t.val t.isLt
  rw [outsAt0_C m c t h0 h15] at hs ⊢
  dsimp only at hs ⊢
  rw [scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun hh => h0 ((hcond0_0 t).mp hh)) ((hcond0_1 t).mpr h15) (xBlk m c t) (hidBlk m c t) (cellBlk m c t) (wxiBlk m c t) (wxfBlk m c t) (wxoBlk m c t) (wxcBlk m c t) (biBlk m c t) (bfBlk m c t) (boBlk m c t) (bcBlk m c t) (whiBlk m c t) (whfBlk m c t) (whoBlk m c t) (whcBlk m c t) (wyBlk m c t) (byBlk m c t) (outsAt0 m c (t.val - 1) (Nat.lt_of_le_of_lt (Nat.sub_le _ _) t.isLt)).2] at hs
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun hh => h0 ((hcond0_0 t).mp hh)) ((hcond0_1 t).mpr h15) (xBlk m c t) (hidBlk m c t) (cellBlk m c t) (wxiBlk m c t) (wxfBlk m c t) (wxoBlk m c t) (wxcBlk m c t) (biBlk m c t) (bfBlk m c t) (boBlk m c t) (bcBlk m c t) (whiBlk m c t) (whfBlk m c t) (whoBlk m c t) (whcBlk m c t) (wyBlk m c t) (byBlk m c t) (outsAt0 m c (t.val - 1) (Nat.lt_of_le_of_lt (Nat.sub_le _ _) t.isLt)).2, hs]
  funext y
  obtain ⟨r, rfl⟩ : ∃ r : Fin 512, y = ix2 r (0 : Fin 1) := ⟨y 0, idx_col y⟩
  rw [outPay_apply, byBlk_apply, ← Cert.LstmSpec.tiledOut_eq_headOut]
  show accUpTo (kArgs m c) (rowOf t r) (t.val % 16) + _ = accUpTo (kArgs m c) (rowOf t r) 15 + _
  rw [h15]; rfl

/-- The output window's block index at point `t`: batch tile `t / 16`, the one column. -/
theorem out_idx : ∀ t : Fin cfg0.N, win0_17.index t (0 : Fin 2) = t.val / 16 ∧ win0_17.index t (1 : Fin 2) = 0 :=
  (by decide +kernel : ∀ t : Fin grid0.N, win0_17.index t (0 : Fin 2) = t.val / 16 ∧ win0_17.index t (1 : Fin 2) = 0)

/-- What point `t` writes back is its block of the specification's head. -/
theorem flushed_eq (c : Dev nD) (t : Fin cfg0.N) (hf : (cfg0.win 17).flush t = true) :
    (dats m 0 c).flushed 17 t = ((cfg0.win 17).blk t).view.read (Elt Ideal) (resultArr m c) := by
  have h15 : t.val % 16 = 15 := (flush0_17 t).mp hf
  rw [Value.flushed17, out_eq m c t h15]
  funext j
  show headOut (kArgs m c) (rowOf t (j 0)) = headOut (kArgs m c) ((((cfg0.win 17).blk t).view.emb j) 0)
  congr 1
  apply Fin.ext
  show 512 * (t.val / 16) + (j 0).val = win0_17.index t (0 : Fin 2) * 512 + 1 * (j 0).val
  rw [(out_idx t).1]; omega

/-- An index of the result is in point `t`'s block iff each coordinate is in the block's range on its axis. -/
theorem mem_blk (t : Fin cfg0.N) (i : S4096x1.Idx) :
    i ∈ ((cfg0.win 17).blk t).view.set ↔ ∀ a : Fin 2, win0_17.index t a * S512x1.size a ≤ (i a).val ∧ (i a).val < win0_17.index t a * S512x1.size a + S512x1.size a := by
  show i ∈ ((View.whole main_v25).slice (win0_17.rect t)).set ↔ _
  rw [View.set_slice_whole, Rect.mem_set_unit]
  exact Iff.rfl

/-- Every row of the result lies in the block some last hidden tile writes back: row `i` in batch tile `i / 512`. -/
theorem covered (i : S4096x1.Idx) : ∃ t : Fin cfg0.N, (cfg0.win 17).flush t = true ∧ i ∈ ((cfg0.win 17).blk t).view.set := by
  have hi0 : (i 0).val < 4096 := (i 0).isLt
  have hi1 : (i 1).val < 1 := (i 1).isLt
  have hN : cfg0.N = 128 := N_0
  refine ⟨⟨16 * ((i 0).val / 512) + 15, by rw [hN]; omega⟩, (flush0_17 _).mpr (by show (16 * ((i 0).val / 512) + 15) % 16 = 15; omega), ?_⟩
  rw [mem_blk]
  intro a
  obtain ⟨e0, e1⟩ := out_idx ⟨16 * ((i 0).val / 512) + 15, by rw [hN]; omega⟩
  match a with
  | ⟨0, _⟩ =>
    show win0_17.index _ (0 : Fin 2) * 512 ≤ (i 0).val ∧ (i 0).val < win0_17.index _ (0 : Fin 2) * 512 + 512
    rw [e0]
    show (16 * ((i 0).val / 512) + 15) / 16 * 512 ≤ (i 0).val ∧ (i 0).val < (16 * ((i 0).val / 512) + 15) / 16 * 512 + 512
    omega
  | ⟨1, _⟩ =>
    show win0_17.index _ (1 : Fin 2) * 1 ≤ (i 1).val ∧ (i 1).val < win0_17.index _ (1 : Fin 2) * 1 + 1
    rw [e1]; omega

/-- The result array after the run is the specification's head, row by row. -/
theorem final (c : Dev nD) : (dats m 0 c).arrAt 17 cfg0.N = resultArr m c :=
  (dats m 0 c).arrAt_eq_of_cover 17 (resultArr m c) (fun t hf => flushed_eq m c t hf) (covered)

/-- The kernel's run: the result array at the specification's head, the arguments unchanged. -/
theorem run : θ_run defs (onTc (τ := τ) (main (F := Ideal))) ⟨m, fun _ => 0, ρ⟩ fun r => ∀ c : Dev nD,
      r.2.mem ((c : Thread nD τ).loc main_v25) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Value.run_blocks m ρ)

end Cert.KernelIdeal.KernelValue

end
-- ==== Proof.RefValue.lean ====
/-
  The reference's result as the specification's head: the host computes, for every batch row b and hidden column j,
  the four gate pre-activations (x·Wxᵀ + bx broadcast along rows, + hidden·Whᵀ), the sigmoid written out as
  1 / (1 + exp(−z)) — which is the logistic function on every extended real, the infinities included —, the cell
  update and the new hidden state, then contracts the 4096 hidden columns against the head's weight row and adds the
  head's bias.
-/
import proofs.«154037_j49254684950852_1_alg».proof.Proof.Gen.ReferenceIdeal.Read
import proofs.«154037_j49254684950852_1_alg».proof.Proof.LstmSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The input gate's pre-activation at row `b`, column `j`: the input row against the weight row `j` (the host
    contracts against the transposed weights), plus the bias at `j` (broadcast along the rows), plus the hidden row
    against the hidden weight row `j`. -/
theorem pre_i (x0 : (⟨S4096x1024, .f32⟩ : BufTy).Contents (Elt Ideal)) (x1 : (⟨S4096x4096, .f32⟩ : BufTy).Contents (Elt Ideal))
    (x3 : (⟨S4096x1024, .f32⟩ : BufTy).Contents (Elt Ideal)) (x7 : (⟨S4096, .f32⟩ : BufTy).Contents (Elt Ideal))
    (x11 : (⟨S4096x4096, .f32⟩ : BufTy).Contents (Elt Ideal)) (b j : Fin 4096) :
    val_main_v7 (F := Ideal) x0 x1 x3 x7 x11 (ix2 b j)
      = ((∑ k : Fin 1024, x0 (ix2 b k) * x3 (ix2 j k)) + x7 (ix1 j)) + ∑ k : Fin 4096, x1 (ix2 b k) * x11 (ix2 j k) := by
  have e1 : ∀ k : Fin 1024, lidx_main_v1 (ix2 b j) k = ix2 b k := fun k => funext fun a => by
    match a with | ⟨0, _⟩ => rfl | ⟨1, _⟩ => rfl
  have e2 : ∀ k : Fin 1024, idx_main_v0 (ridx_main_v1 (ix2 b j) k) = ix2 j k := fun k => funext fun a => by
    match a with | ⟨0, _⟩ => rfl | ⟨1, _⟩ => rfl
  have e3 : idx_main_v2 (idx_main_v3 (ix2 b j)) = ix1 j := funext fun a => by
    match a with | ⟨0, _⟩ => rfl
  have e4 : ∀ k : Fin 4096, lidx_main_v6 (ix2 b j) k = ix2 b k := fun k => funext fun a => by
    match a with | ⟨0, _⟩ => rfl | ⟨1, _⟩ => rfl
  have e5 : ∀ k : Fin 4096, idx_main_v5 (ridx_main_v6 (ix2 b j) k) = ix2 j k := fun k => funext fun a => by
    match a with | ⟨0, _⟩ => rfl | ⟨1, _⟩ => rfl
  rw [val_main_v7_apply, val_main_v4_apply, val_main_v1_apply, val_main_v3_apply, val_main_v2_apply, val_main_v6_apply, e3]
  simp only [val_main_v0_apply, val_main_v5_apply, e1, e2, e4, e5, Ideal.addf_def]

/-- The forget gate's pre-activation at row `b`, column `j`: the input row against the weight row `j` (the host
    contracts against the transposed weights), plus the bias at `j` (broadcast along the rows), plus the hidden row
    against the hidden weight row `j`. -/
theorem pre_f (x0 : (⟨S4096x1024, .f32⟩ : BufTy).Contents (Elt Ideal)) (x1 : (⟨S4096x4096, .f32⟩ : BufTy).Contents (Elt Ideal))
    (x4 : (⟨S4096x1024, .f32⟩ : BufTy).Contents (Elt Ideal)) (x8 : (⟨S4096, .f32⟩ : BufTy).Contents (Elt Ideal))
    (x12 : (⟨S4096x4096, .f32⟩ : BufTy).Contents (Elt Ideal)) (b j : Fin 4096) :
    val_main_v21 (F := Ideal) x0 x1 x4 x8 x12 (ix2 b j)
      = ((∑ k : Fin 1024, x0 (ix2 b k) * x4 (ix2 j k)) + x8 (ix1 j)) + ∑ k : Fin 4096, x1 (ix2 b k) * x12 (ix2 j k) := by
  have e1 : ∀ k : Fin 1024, lidx_main_v15 (ix2 b j) k = ix2 b k := fun k => funext fun a => by
    match a with | ⟨0, _⟩ => rfl | ⟨1, _⟩ => rfl
  have e2 : ∀ k : Fin 1024, idx_main_v14 (ridx_main_v15 (ix2 b j) k) = ix2 j k := fun k => funext fun a => by
    match a with | ⟨0, _⟩ => rfl | ⟨1, _⟩ => rfl
  have e3 : idx_main_v16 (idx_main_v17 (ix2 b j)) = ix1 j := funext fun a => by
    match a with | ⟨0, _⟩ => rfl
  have e4 : ∀ k : Fin 4096, lidx_main_v20 (ix2 b j) k = ix2 b k := fun k => funext fun a => by
    match a with | ⟨0, _⟩ => rfl | ⟨1, _⟩ => rfl
  have e5 : ∀ k : Fin 4096, idx_main_v19 (ridx_main_v20 (ix2 b j) k) = ix2 j k := fun k => funext fun a => by
    match a with | ⟨0, _⟩ => rfl | ⟨1, _⟩ => rfl
  rw [val_main_v21_apply, val_main_v18_apply, val_main_v15_apply, val_main_v17_apply, val_main_v16_apply, val_main_v20_apply, e3]
  simp only [val_main_v14_apply, val_main_v19_apply, e1, e2, e4, e5, Ideal.addf_def]

/-- The output gate's pre-activation at row `b`, column `j`: the input row against the weight row `j` (the host
    contracts against the transposed weights), plus the bias at `j` (broadcast along the rows), plus the hidden row
    against the hidden weight row `j`. -/
theorem pre_o (x0 : (⟨S4096x1024, .f32⟩ : BufTy).Contents (Elt Ideal)) (x1 : (⟨S4096x4096, .f32⟩ : BufTy).Contents (Elt Ideal))
    (x5 : (⟨S4096x1024, .f32⟩ : BufTy).Contents (Elt Ideal)) (x9 : (⟨S4096, .f32⟩ : BufTy).Contents (Elt Ideal))
    (x13 : (⟨S4096x4096, .f32⟩ : BufTy).Contents (Elt Ideal)) (b j : Fin 4096) :
    val_main_v35 (F := Ideal) x0 x1 x5 x9 x13 (ix2 b j)
      = ((∑ k : Fin 1024, x0 (ix2 b k) * x5 (ix2 j k)) + x9 (ix1 j)) + ∑ k : Fin 4096, x1 (ix2 b k) * x13 (ix2 j k) := by
  have e1 : ∀ k : Fin 1024, lidx_main_v29 (ix2 b j) k = ix2 b k := fun k => funext fun a => by
    match a with | ⟨0, _⟩ => rfl | ⟨1, _⟩ => rfl
  have e2 : ∀ k : Fin 1024, idx_main_v28 (ridx_main_v29 (ix2 b j) k) = ix2 j k := fun k => funext fun a => by
    match a with | ⟨0, _⟩ => rfl | ⟨1, _⟩ => rfl
  have e3 : idx_main_v30 (idx_main_v31 (ix2 b j)) = ix1 j := funext fun a => by
    match a with | ⟨0, _⟩ => rfl
  have e4 : ∀ k : Fin 4096, lidx_main_v34 (ix2 b j) k = ix2 b k := fun k => funext fun a => by
    match a with | ⟨0, _⟩ => rfl | ⟨1, _⟩ => rfl
  have e5 : ∀ k : Fin 4096, idx_main_v33 (ridx_main_v34 (ix2 b j) k) = ix2 j k := fun k => funext fun a => by
    match a with | ⟨0, _⟩ => rfl | ⟨1, _⟩ => rfl
  rw [val_main_v35_apply, val_main_v32_apply, val_main_v29_apply, val_main_v31_apply, val_main_v30_apply, val_main_v34_apply, e3]
  simp only [val_main_v28_apply, val_main_v33_apply, e1, e2, e4, e5, Ideal.addf_def]

/-- The candidate gate's pre-activation at row `b`, column `j`: the input row against the weight row `j` (the host
    contracts against the transposed weights), plus the bias at `j` (broadcast along the rows), plus the hidden row
    against the hidden weight row `j`. -/
theorem pre_c (x0 : (⟨S4096x1024, .f32⟩ : BufTy).Contents (Elt Ideal)) (x1 : (⟨S4096x4096, .f32⟩ : BufTy).Contents (Elt Ideal))
    (x6 : (⟨S4096x1024, .f32⟩ : BufTy).Contents (Elt Ideal)) (x10 : (⟨S4096, .f32⟩ : BufTy).Contents (Elt Ideal))
    (x14 : (⟨S4096x4096, .f32⟩ : BufTy).Contents (Elt Ideal)) (b j : Fin 4096) :
    val_main_v49 (F := Ideal) x0 x1 x6 x10 x14 (ix2 b j)
      = ((∑ k : Fin 1024, x0 (ix2 b k) * x6 (ix2 j k)) + x10 (ix1 j)) + ∑ k : Fin 4096, x1 (ix2 b k) * x14 (ix2 j k) := by
  have e1 : ∀ k : Fin 1024, lidx_main_v43 (ix2 b j) k = ix2 b k := fun k => funext fun a => by
    match a with | ⟨0, _⟩ => rfl | ⟨1, _⟩ => rfl
  have e2 : ∀ k : Fin 1024, idx_main_v42 (ridx_main_v43 (ix2 b j) k) = ix2 j k := fun k => funext fun a => by
    match a with | ⟨0, _⟩ => rfl | ⟨1, _⟩ => rfl
  have e3 : idx_main_v44 (idx_main_v45 (ix2 b j)) = ix1 j := funext fun a => by
    match a with | ⟨0, _⟩ => rfl
  have e4 : ∀ k : Fin 4096, lidx_main_v48 (ix2 b j) k = ix2 b k := fun k => funext fun a => by
    match a with | ⟨0, _⟩ => rfl | ⟨1, _⟩ => rfl
  have e5 : ∀ k : Fin 4096, idx_main_v47 (ridx_main_v48 (ix2 b j) k) = ix2 j k := fun k => funext fun a => by
    match a with | ⟨0, _⟩ => rfl | ⟨1, _⟩ => rfl
  rw [val_main_v49_apply, val_main_v46_apply, val_main_v43_apply, val_main_v45_apply, val_main_v44_apply, val_main_v48_apply, e3]
  simp only [val_main_v42_apply, val_main_v47_apply, e1, e2, e4, e5, Ideal.addf_def]

/-- The input gate: the host's `1 / (1 + exp (−z))`, with both ones the constant of bit pattern `0x3F800000`, is the
    logistic function of the pre-activation. -/
theorem sig_i (x0 : (⟨S4096x1024, .f32⟩ : BufTy).Contents (Elt Ideal)) (x1 : (⟨S4096x4096, .f32⟩ : BufTy).Contents (Elt Ideal))
    (x3 : (⟨S4096x1024, .f32⟩ : BufTy).Contents (Elt Ideal)) (x7 : (⟨S4096, .f32⟩ : BufTy).Contents (Elt Ideal))
    (x11 : (⟨S4096x4096, .f32⟩ : BufTy).Contents (Elt Ideal)) (i : S4096x4096.Idx) :
    val_main_v13 (F := Ideal) x0 x1 x3 x7 x11 i = Ideal.logistic (val_main_v7 (F := Ideal) x0 x1 x3 x7 x11 i) := by
  rw [val_main_v13_apply, val_main_v12_apply, val_main_cst_0_apply, val_main_v11_apply, val_main_v10_apply, val_main_cst_apply,
    val_main_v9_apply, val_main_v8_apply]
  simp only [Ideal.hostDivf_def, Ideal.addf_def, Ideal.hostUnary_exp_def, Ideal.hostNegf_def, Ideal.negf_def, Ideal.ofBits_def,
    Ideal.ofBits_one_f32]
  rfl

/-- The forget gate: the host's `1 / (1 + exp (−z))`, with both ones the constant of bit pattern `0x3F800000`, is the
    logistic function of the pre-activation. -/
theorem sig_f (x0 : (⟨S4096x1024, .f32⟩ : BufTy).Contents (Elt Ideal)) (x1 : (⟨S4096x4096, .f32⟩ : BufTy).Contents (Elt Ideal))
    (x4 : (⟨S4096x1024, .f32⟩ : BufTy).Contents (Elt Ideal)) (x8 : (⟨S4096, .f32⟩ : BufTy).Contents (Elt Ideal))
    (x12 : (⟨S4096x4096, .f32⟩ : BufTy).Contents (Elt Ideal)) (i : S4096x4096.Idx) :
    val_main_v27 (F := Ideal) x0 x1 x4 x8 x12 i = Ideal.logistic (val_main_v21 (F := Ideal) x0 x1 x4 x8 x12 i) := by
  rw [val_main_v27_apply, val_main_v26_apply, val_main_cst_2_apply, val_main_v25_apply, val_main_v24_apply, val_main_cst_1_apply,
    val_main_v23_apply, val_main_v22_apply]
  simp only [Ideal.hostDivf_def, Ideal.addf_def, Ideal.hostUnary_exp_def, Ideal.hostNegf_def, Ideal.negf_def, Ideal.ofBits_def,
    Ideal.ofBits_one_f32]
  rfl

/-- The output gate: the host's `1 / (1 + exp (−z))`, with both ones the constant of bit pattern `0x3F800000`, is the
    logistic function of the pre-activation. -/
theorem sig_o (x0 : (⟨S4096x1024, .f32⟩ : BufTy).Contents (Elt Ideal)) (x1 : (⟨S4096x4096, .f32⟩ : BufTy).Contents (Elt Ideal))
    (x5 : (⟨S4096x1024, .f32⟩ : BufTy).Contents (Elt Ideal)) (x9 : (⟨S4096, .f32⟩ : BufTy).Contents (Elt Ideal))
    (x13 : (⟨S4096x4096, .f32⟩ : BufTy).Contents (Elt Ideal)) (i : S4096x4096.Idx) :
    val_main_v41 (F := Ideal) x0 x1 x5 x9 x13 i = Ideal.logistic (val_main_v35 (F := Ideal) x0 x1 x5 x9 x13 i) := by
  rw [val_main_v41_apply, val_main_v40_apply, val_main_cst_4_apply, val_main_v39_apply, val_main_v38_apply, val_main_cst_3_apply,
    val_main_v37_apply, val_main_v36_apply]
  simp only [Ideal.hostDivf_def, Ideal.addf_def, Ideal.hostUnary_exp_def, Ideal.hostNegf_def, Ideal.negf_def, Ideal.ofBits_def,
    Ideal.ofBits_one_f32]
  rfl

/-- The new hidden state at row `b`, column `j`: the output gate times the hyperbolic tangent of the new cell, which is
    the forget gate times the old cell plus the input gate times the hyperbolic tangent of the candidate. -/
theorem hnew_at (x0 : (⟨S4096x1024, .f32⟩ : BufTy).Contents (Elt Ideal)) (x1 x2 : (⟨S4096x4096, .f32⟩ : BufTy).Contents (Elt Ideal))
    (x3 x4 x5 x6 : (⟨S4096x1024, .f32⟩ : BufTy).Contents (Elt Ideal)) (x7 x8 x9 x10 : (⟨S4096, .f32⟩ : BufTy).Contents (Elt Ideal))
    (x11 x12 x13 x14 : (⟨S4096x4096, .f32⟩ : BufTy).Contents (Elt Ideal)) (x15 : (⟨S1x4096, .f32⟩ : BufTy).Contents (Elt Ideal))
    (x16 : (⟨S1, .f32⟩ : BufTy).Contents (Elt Ideal)) (b j : Fin 4096) :
    val_main_v55 (F := Ideal) x0 x1 x2 x3 x4 x5 x6 x7 x8 x9 x10 x11 x12 x13 x14 (ix2 b j)
      = Cert.LstmSpec.hNew (Cert.LstmSpec.argsOf x0 x1 x2 x3 x4 x5 x6 x7 x8 x9 x10 x11 x12 x13 x14 x15 x16) b j := by
  rw [val_main_v55_apply, val_main_v54_apply, val_main_v53_apply, val_main_v51_apply, val_main_v52_apply, val_main_v50_apply,
    sig_o, sig_f, sig_i, pre_i, pre_f, pre_o, pre_c]
  simp only [Ideal.mulf_def, Ideal.addf_def, Ideal.hostUnary_tanh_def]
  rfl

/-- The reference's last stage, at row `b` of its one output column, is the specification's head at `b`. -/
theorem ref_eq (x0 : (⟨S4096x1024, .f32⟩ : BufTy).Contents (Elt Ideal)) (x1 x2 : (⟨S4096x4096, .f32⟩ : BufTy).Contents (Elt Ideal))
    (x3 x4 x5 x6 : (⟨S4096x1024, .f32⟩ : BufTy).Contents (Elt Ideal)) (x7 x8 x9 x10 : (⟨S4096, .f32⟩ : BufTy).Contents (Elt Ideal))
    (x11 x12 x13 x14 : (⟨S4096x4096, .f32⟩ : BufTy).Contents (Elt Ideal)) (x15 : (⟨S1x4096, .f32⟩ : BufTy).Contents (Elt Ideal))
    (x16 : (⟨S1, .f32⟩ : BufTy).Contents (Elt Ideal)) :
    val_main_v60 (F := Ideal) x0 x1 x2 x3 x4 x5 x6 x7 x8 x9 x10 x11 x12 x13 x14 x15 x16
      = fun i => Cert.LstmSpec.headOut (Cert.LstmSpec.argsOf x0 x1 x2 x3 x4 x5 x6 x7 x8 x9 x10 x11 x12 x13 x14 x15 x16) (i 0) := by
  funext i
  obtain ⟨b, c, rfl⟩ : ∃ (b : Fin 4096) (c : Fin 1), i = ix2 b c := ⟨i 0, i 1, eq_ix2 i⟩
  obtain rfl : c = 0 := Subsingleton.elim _ _
  have e1 : ∀ k : Fin 4096, lidx_main_v57 (ix2 b (0 : Fin 1)) k = ix2 b k := fun k => funext fun a => by
    match a with | ⟨0, _⟩ => rfl | ⟨1, _⟩ => rfl
  have e2 : ∀ k : Fin 4096, idx_main_v56 (ridx_main_v57 (ix2 b (0 : Fin 1)) k) = ix2 (0 : Fin 1) k := fun k => funext fun a => by
    match a with | ⟨0, _⟩ => rfl | ⟨1, _⟩ => rfl
  have e3 : idx_main_v58 (idx_main_v59 (ix2 b (0 : Fin 1))) = ix1 (0 : Fin 1) := funext fun a => by
    match a with | ⟨0, _⟩ => rfl
  rw [val_main_v60_apply, val_main_v57_apply, val_main_v59_apply, val_main_v58_apply, e3]
  simp only [val_main_v56_apply, e1, e2, hnew_at x0 x1 x2 x3 x4 x5 x6 x7 x8 x9 x10 x11 x12 x13 x14 x15 x16, Ideal.addf_def]
  rfl

end Cert.ReferenceIdeal.RefValue

end
-- ==== Proof.lean ====
/-
  One LSTM step with a one-column linear head: the tiled kernel against the plain formula.

  Both programs compute, for batch row b, y(b) = Σ_{j<4096} h'(b, j)·Wy(j) + by with
  h' = σ(z_o)·tanh(σ(z_f)·cell + σ(z_i)·tanh(z_c)) and z_g = (x·Wx_gᵀ + bx_g) + hidden·Wh_gᵀ. The kernel walks an
  8 x 16 grid of 512 batch rows by 256 hidden columns, hidden tile fastest, keeps a 512-row accumulator that it
  resets to zero at hidden tile 0 and to which every point adds its tile's 256 products, and at hidden tile 15 writes
  the accumulator plus by to the result. At the extended reals a change of float format is the identity, the
  kernel's logistic is the host's 1 / (1 + exp(−z)), both matrix products are plain sums, and addition is associative
  and commutative with neutral 0: so the sixteen folded tile sums are the sum over the 4096 columns, and the two
  results are equal entry by entry, for all inputs (the precondition is not used).

  The frames of the two kernel programs are the generated ones; the reference's frame is its generated run with the
  result dropped; the ideal pass rewrote nothing, so `preserves` is trivial.
-/
import proofs.«154037_j49254684950852_1_alg».proof.Defs
import proofs.«154037_j49254684950852_1_alg».proof.Proof.Gen.Kernel
import proofs.«154037_j49254684950852_1_alg».proof.Proof.Gen.Kernel.Skeleton
import proofs.«154037_j49254684950852_1_alg».proof.Proof.Gen.Kernel.Launch
import proofs.«154037_j49254684950852_1_alg».proof.Proof.Gen.Kernel.Points
import proofs.«154037_j49254684950852_1_alg».proof.Proof.Gen.Kernel.Frame
import proofs.«154037_j49254684950852_1_alg».proof.Proof.Gen.KernelIdeal
import proofs.«154037_j49254684950852_1_alg».proof.Proof.Gen.KernelIdeal.Skeleton
import proofs.«154037_j49254684950852_1_alg».proof.Proof.Gen.KernelIdeal.Launch
import proofs.«154037_j49254684950852_1_alg».proof.Proof.Gen.KernelIdeal.Points
import proofs.«154037_j49254684950852_1_alg».proof.Proof.Gen.KernelIdeal.Frame
import proofs.«154037_j49254684950852_1_alg».proof.Proof.Gen.ReferenceIdeal
import proofs.«154037_j49254684950852_1_alg».proof.Proof.Gen.Pre_finite_inputs
import proofs.«154037_j49254684950852_1_alg».proof.Proof.Gen.KernelIdeal.Value
import proofs.«154037_j49254684950852_1_alg».proof.Proof.Gen.ReferenceIdeal.Run
import proofs.«154037_j49254684950852_1_alg».proof.Proof.Gen.ReferenceIdeal.Read
import proofs.«154037_j49254684950852_1_alg».proof.Proof.KernelValue
import proofs.«154037_j49254684950852_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the specification's head of its arguments (the induction over the grid), the
    reference's at the head of its own (read off the host operations one by one); the arguments agree. -/
theorem algebraic : Cert.algebraic_KernelIdeal_ReferenceIdeal := by
  intro m ρ m' ρ' _ hagree
  refine ⟨fun c => Cert.KernelIdeal.KernelValue.resultArr m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  rw [Cert.ReferenceIdeal.Read.val_main_v60_eq, Cert.ReferenceIdeal.RefValue.ref_eq, e0, e1, e2, e3, e4, e5, e6, e7, e8, e9, e10, e11, e12, e13, e14, e15, e16]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
